-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S4x96x256 : S_.BroadcastsInDim S4x96x256 (![] : Fin 0 → Fin S4x96x256.rank)
  reducesTo_S4x96x256_S_d0_1_2 : S4x96x256.ReducesTo [0, 1, 2] S_
  bcast_S_S4x256 : S_.BroadcastsInDim S4x256 (![] : Fin 0 → Fin S4x256.rank)
  reducesTo_S4x256_S_d0_1 : S4x256.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S2x800000 32) (main_arg1 : FVec F S50000x96 .f32) (main_arg2 : FVec F S4x96x256 .f32) (main_arg3 : FVec F S4x256 .f32) (main_arg4 : FVec F S1024x256 .f32) (main_arg5 : FVec F S256 .f32) : IVec S_ 1 :=
  let main_v0 : FVec F S50000x96 .f32 := Host.absf main_arg1
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S4x96x256 .f32 := Host.absf main_arg2
  let main_cst_0 : FVec F S_ .f32 := constant S_ .f32 0x7F800000#32
  let main_v5 : FVec F S4x96x256 .f32 := broadcastInDim S4x96x256 ![] bcast_S_S4x96x256 main_cst_0
  let main_v6 : IVec S4x96x256 1 := cmpf .olt main_v4 main_v5
  let main_c_1 : IVec S_ 1 := constantI S_ 1 1#1
  let main_v7 : IVec S_ 1 := (fun x v => Host.reduce IntOp.andi x v reducesTo_S4x96x256_S_d0_1_2 h_S_) main_v6 main_c_1
  let main_v8 : IVec S_ 1 := andi main_v3 main_v7
  let main_v9 : FVec F S4x256 .f32 := Host.absf main_arg3
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_v13 main_v16
-- ==== Kernel.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x96 : Shape := ⟨2, ![850000, 96]⟩
abbrev S1x50000x96 : Shape := ⟨3, ![1, 50000, 96]⟩
abbrev S4x50000x96 : Shape := ⟨3, ![4, 50000, 96]⟩
abbrev S4x256x256 : Shape := ⟨3, ![4, 256, 256]⟩
abbrev S1x256 : Shape := ⟨2, ![1, 256]⟩
abbrev S50000x256 : Shape := ⟨2, ![50000, 256]⟩
abbrev S4x2000x96 : Shape := ⟨3, ![4, 2000, 96]⟩
abbrev S2000x256 : Shape := ⟨2, ![2000, 256]⟩
abbrev S1x2000x96 : Shape := ⟨3, ![1, 2000, 96]⟩
abbrev S2000x96 : Shape := ⟨2, ![2000, 96]⟩
abbrev S1x96x256 : Shape := ⟨3, ![1, 96, 256]⟩
abbrev S96x256 : Shape := ⟨2, ![96, 256]⟩
abbrev S1x256x256 : Shape := ⟨3, ![1, 256, 256]⟩
abbrev S256x256 : Shape := ⟨2, ![256, 256]⟩

abbrev nBuf : Space → Nat
  | .hbm => 116
  | .vmem => 8
  | .smem => 0
  | _ => 0

abbrev bufTy : (tb : Table) → Fin (tcTables nBuf tb) → BufTy
  | .hbm, ⟨0, _⟩ => ⟨S2x800000, .i32⟩
  | .hbm, ⟨1, _⟩ => ⟨S50000x96, .f32⟩
  | .hbm, ⟨2, _⟩ => ⟨S4x96x256, .f32⟩
  | .hbm, ⟨3, _⟩ => ⟨S4x256, .f32⟩
  | .hbm, ⟨4, _⟩ => ⟨S1024x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S800000, .i1⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x96, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x96, .f32⟩
  | .hbm, ⟨59, _⟩ => ⟨S50000x96, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x96, .f32⟩
  | .hbm, ⟨70, _⟩ => ⟨S850000x96, .f32⟩
  | .hbm, ⟨71, _⟩ => ⟨S850000x96, .f32⟩
  | .hbm, ⟨72, _⟩ => ⟨S_, .f32⟩
  | .hbm, ⟨73, _⟩ => ⟨S50000x96, .f32⟩
  | .hbm, ⟨74, _⟩ => ⟨S850000x1, .i32⟩
  | .hbm, ⟨75, _⟩ => ⟨S50000x96, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x96, .f32⟩
  | .hbm, ⟨86, _⟩ => ⟨S850000x96, .f32⟩
  | .hbm, ⟨87, _⟩ => ⟨S850000x96, .f32⟩
  | .hbm, ⟨88, _⟩ => ⟨S_, .f32⟩
  | .hbm, ⟨89, _⟩ => ⟨S50000x96, .f32⟩
  | .hbm, ⟨90, _⟩ => ⟨S850000x1, .i32⟩
  | .hbm, ⟨91, _⟩ => ⟨S50000x96, .f32⟩
  | .hbm, ⟨92, _⟩ => ⟨S850000x1, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x96, .f32⟩
  | .hbm, ⟨102, _⟩ => ⟨S850000x96, .f32⟩
  | .hbm, ⟨103, _⟩ => ⟨S850000x96, .f32⟩
  | .hbm, ⟨104, _⟩ => ⟨S_, .f32⟩
  | .hbm, ⟨105, _⟩ => ⟨S50000x96, .f32⟩
  | .hbm, ⟨106, _⟩ => ⟨S850000x1, .i32⟩
  | .hbm, ⟨107, _⟩ => ⟨S50000x96, .f32⟩
  | .hbm, ⟨108, _⟩ => ⟨S1x50000x96, .f32⟩
  | .hbm, ⟨109, _⟩ => ⟨S1x50000x96, .f32⟩
  | .hbm, ⟨110, _⟩ => ⟨S1x50000x96, .f32⟩
  | .hbm, ⟨111, _⟩ => ⟨S1x50000x96, .f32⟩
  | .hbm, ⟨112, _⟩ => ⟨S4x50000x96, .f32⟩
  | .hbm, ⟨113, _⟩ => ⟨S4x256x256, .f32⟩
  | .hbm, ⟨114, _⟩ => ⟨S1x256, .f32⟩
  | .hbm, ⟨115, _⟩ => ⟨S50000x256, .f32⟩
  | .local _ .vmem, ⟨0, _⟩ => ⟨S4x2000x96, .f32⟩
  | .local _ .vmem, ⟨1, _⟩ => ⟨S4x2000x96, .f32⟩
  | .local _ .vmem, ⟨2, _⟩ => ⟨S4x96x256, .f32⟩
  | .local _ .vmem, ⟨3, _⟩ => ⟨S4x256, .f32⟩
  | .local _ .vmem, ⟨4, _⟩ => ⟨S4x256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S50000x96_S1x50000x96_1_2 : S50000x96.BroadcastsInDim S1x50000x96 (![1, 2] : Fin 2 → Fin S1x50000x96.rank)
  concatenates_S1x50000x96_S1x50000x96_S1x50000x96_S1x50000x96_S4x50000x96_d0 : Shape.Concatenates [S1x50000x96, S1x50000x96, S1x50000x96, S1x50000x96] S4x50000x96 0
  shapeCasts_S1024x256_S4x256x256 : S1024x256.ShapeCasts S4x256x256
  shapeCasts_S256_S1x256 : S256.ShapeCasts S1x256
  inb_S4x2000x96_S1x2000x96_0_0_0 : ∀ a, (![0, 0, 0] : Fin 3 → Nat) a + S1x2000x96.size a ≤ S4x2000x96.size a
  h_S1x2000x96 : 0 < S1x2000x96.numel
  shapeCasts_S1x2000x96_S2000x96 : S1x2000x96.ShapeCasts S2000x96
  bitsLt_bf16_f32 : FTy.bits .bf16 < FTy.bits .f32
  inb_S4x96x256_S1x96x256_0_0_0 : ∀ a, (![0, 0, 0] : Fin 3 → Nat) a + S1x96x256.size a ≤ S4x96x256.size a
  h_S1x96x256 : 0 < S1x96x256.numel
  shapeCasts_S1x96x256_S96x256 : S1x96x256.ShapeCasts S96x256
  inb_S4x256_S1x256_0_0 : ∀ a, (![0, 0] : Fin 2 → Nat) a + S1x256.size a ≤ S4x256.size a
  h_S1x256 : 0 < S1x256.numel
  shapeCasts_S1x256_S256 : S1x256.ShapeCasts S256
  broadcasts_S1x256_S2000x256 : S1x256.Broadcasts S2000x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x2000x96_S1x2000x96_1_0_0 : ∀ a, (![1, 0, 0] : Fin 3 → Nat) a + S1x2000x96.size a ≤ S4x2000x96.size a
  inb_S4x96x256_S1x96x256_1_0_0 : ∀ a, (![1, 0, 0] : Fin 3 → Nat) a + S1x96x256.size a ≤ S4x96x256.size a
  inb_S4x256_S1x256_1_0 : ∀ a, (![1, 0] : Fin 2 → Nat) a + S1x256.size a ≤ S4x256.size a
  inb_S4x256x256_S1x256x256_1_0_0 : ∀ a, (![1, 0, 0] : Fin 3 → Nat) a + S1x256x256.size a ≤ S4x256x256.size a
  inb_S4x2000x96_S1x2000x96_2_0_0 : ∀ a, (![2, 0, 0] : Fin 3 → Nat) a + S1x2000x96.size a ≤ S4x2000x96.size a
  inb_S4x96x256_S1x96x256_2_0_0 : ∀ a, (![2, 0, 0] : Fin 3 → Nat) a + S1x96x256.size a ≤ S4x96x256.size a
  inb_S4x256_S1x256_2_0 : ∀ a, (![2, 0] : Fin 2 → Nat) a + S1x256.size a ≤ S4x256.size a
  inb_S4x256x256_S1x256x256_2_0_0 : ∀ a, (![2, 0, 0] : Fin 3 → Nat) a + S1x256x256.size a ≤ S4x256x256.size a
  inb_S4x2000x96_S1x2000x96_3_0_0 : ∀ a, (![3, 0, 0] : Fin 3 → Nat) a + S1x2000x96.size a ≤ S4x2000x96.size a
  inb_S4x96x256_S1x96x256_3_0_0 : ∀ a, (![3, 0, 0] : Fin 3 → Nat) a + S1x96x256.size a ≤ S4x96x256.size a
  inb_S4x256_S1x256_3_0 : ∀ a, (![3, 0] : Fin 2 → Nat) a + S1x256.size a ≤ S4x256.size a
  inb_S4x256x256_S1x256x256_3_0_0 : ∀ a, (![3, 0, 0] : Fin 3 → Nat) a + S1x256x256.size a ≤ S4x256x256.size a
  inb_S1x256_S1x256_0_0 : ∀ a, (![0, 0] : Fin 2 → Nat) a + S1x256.size a ≤ S1x256.size a
  inb_S2000x256_S2000x256_0_0 : ∀ a, (![0, 0] : Fin 2 → Nat) a + S2000x256.size a ≤ S2000x256.size a
  h_S2000x256 : 0 < S2000x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x256_S2000x256_1_0_0_1_n_n_wf : DotDims.WF S2000x96 S96x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x96.size a ≤ S4x50000x96.size a
  hwx0_0 : ∀ i : grid0.Coords, EltTy.bits .f32 = 32 ∨ (Rect.block (s := S4x50000x96) S4x2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x96x256.size a ≤ S4x96x256.size a
  hwx0_1 : ∀ i : grid0.Coords, EltTy.bits .f32 = 32 ∨ (Rect.block (s := S4x96x256) S4x96x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S4x256x256.size a
  hwx0_3 : ∀ i : grid0.Coords, EltTy.bits .f32 = 32 ∨ (Rect.block (s := S4x256x256) S4x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v82) S4x2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x96x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v83) S4x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v84) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x96 : Shape := ⟨2, ![850000, 96]⟩
abbrev S1x96x256 : Shape := ⟨3, ![1, 96, 256]⟩
abbrev S96x256 : Shape := ⟨2, ![96, 256]⟩
abbrev S50000x256 : Shape := ⟨2, ![50000, 256]⟩
abbrev S1x256 : Shape := ⟨2, ![1, 256]⟩
abbrev S50000x1024 : Shape := ⟨2, ![50000, 1024]⟩

abbrev nBuf : Space → Nat
  | .hbm => 160
  | .vmem => 0
  | .smem => 0
  | _ => 0

abbrev hbmTy0_0 (i : Nat) : BufTy := match i % 128 with
  | 0 => ⟨S2x800000, .i32⟩
  | 1 => ⟨S50000x96, .f32⟩
  | 2 => ⟨S4x96x256, .f32⟩
  | 3 => ⟨S4x256, .f32⟩
  | 4 => ⟨S1024x256, .f32⟩
  | 5 => ⟨S256, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S800000, .i1⟩
  | 14 => ⟨S800000, .f32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S_, .f32⟩
  | 52 => ⟨S50000, .f32⟩
  | 53 => ⟨S50000x1, .f32⟩
  | 54 => ⟨S50000x1, .f32⟩
  | 55 => ⟨S_, .f32⟩
  | 56 => ⟨S50000x1, .f32⟩
  | 57 => ⟨S50000x1, .f32⟩
  | 58 => ⟨S50000x96, .f32⟩
  | 59 => ⟨S50000x96, .f32⟩
  | 60 => ⟨S850000x1, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x96, .f32⟩
  | 70 => ⟨S850000x96, .f32⟩
  | 71 => ⟨S850000x96, .f32⟩
  | 72 => ⟨S_, .f32⟩
  | 73 => ⟨S50000x96, .f32⟩
  | 74 => ⟨S850000x1, .i32⟩
  | 75 => ⟨S50000x96, .f32⟩
  | 76 => ⟨S850000x1, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x96, .f32⟩
  | 86 => ⟨S850000x96, .f32⟩
  | 87 => ⟨S850000x96, .f32⟩
  | 88 => ⟨S_, .f32⟩
  | 89 => ⟨S50000x96, .f32⟩
  | 90 => ⟨S850000x1, .i32⟩
  | 91 => ⟨S50000x96, .f32⟩
  | 92 => ⟨S850000x1, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x96, .f32⟩
  | 102 => ⟨S850000x96, .f32⟩
  | 103 => ⟨S850000x96, .f32⟩
  | 104 => ⟨S_, .f32⟩
  | 105 => ⟨S50000x96, .f32⟩
  | 106 => ⟨S850000x1, .i32⟩
  | 107 => ⟨S50000x96, .f32⟩
  | 108 => ⟨S1x96x256, .f32⟩
  | 109 => ⟨S96x256, .f32⟩
  | 110 => ⟨S50000x256, .f32⟩
  | 111 => ⟨S1x256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S1x96x256, .f32⟩
  | 120 => ⟨S96x256, .f32⟩
  | 121 => ⟨S50000x256, .f32⟩
  | 122 => ⟨S1x256, .f32⟩
  | 123 => ⟨S256, .f32⟩
  | 124 => ⟨S1x256, .f32⟩
  | 125 => ⟨S50000x256, .f32⟩
  | 126 => ⟨S50000x256, .f32⟩
  | 127 => ⟨S_, .f32⟩
  | _ => ⟨S2x800000, .i32⟩

abbrev hbmTy0_1 (i : Nat) : BufTy := match i % 128 with
  | 0 => ⟨S50000x256, .f32⟩
  | 1 => ⟨S50000x256, .f32⟩
  | 2 => ⟨S1x96x256, .f32⟩
  | 3 => ⟨S96x256, .f32⟩
  | 4 => ⟨S50000x256, .f32⟩
  | 5 => ⟨S1x256, .f32⟩
  | 6 => ⟨S256, .f32⟩
  | 7 => ⟨S1x256, .f32⟩
  | 8 => ⟨S50000x256, .f32⟩
  | 9 => ⟨S50000x256, .f32⟩
  | 10 => ⟨S_, .f32⟩
  | 11 => ⟨S50000x256, .f32⟩
  | 12 => ⟨S50000x256, .f32⟩
  | 13 => ⟨S1x96x256, .f32⟩
  | 14 => ⟨S96x256, .f32⟩
  | 15 => ⟨S50000x256, .f32⟩
  | 16 => ⟨S1x256, .f32⟩
  | 17 => ⟨S256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x1024, .f32⟩
  | 25 => ⟨S50000x256, .f32⟩
  | 26 => ⟨S1x256, .f32⟩
  | 27 => ⟨S50000x256, .f32⟩
  | 28 => ⟨S50000x256, .f32⟩
  | 29 => ⟨S_, .f32⟩
  | 30 => ⟨S50000x256, .f32⟩
  | 31 => ⟨S50000x256, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call2_cst : Ref sig .tc := ⟨.hbm, 116, rfl⟩
abbrev main_call2_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call4_cst : Ref sig .tc := ⟨.hbm, 138, rfl⟩
abbrev main_call4_v0 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call5_cst : Ref sig .tc := ⟨.hbm, 149, rfl⟩
abbrev main_call5_v0 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_call6_cst : Ref sig .tc := ⟨.hbm, 157, rfl⟩
abbrev main_call6_v0 : Ref sig .tc := ⟨.hbm, 158, rfl⟩
abbrev main_v119 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S4x96x256_S1x96x256_0_0_0 : S4x96x256.Slices ![0, 0, 0] S1x96x256
  shapeCasts_S1x96x256_S96x256 : S1x96x256.ShapeCasts S96x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x96x256_S1x96x256_1_0_0 : S4x96x256.Slices ![1, 0, 0] S1x96x256
  slices_S4x256_S1x256_1_0 : S4x256.Slices ![1, 0] S1x256
  slices_S4x96x256_S1x96x256_2_0_0 : S4x96x256.Slices ![2, 0, 0] S1x96x256
  slices_S4x256_S1x256_2_0 : S4x256.Slices ![2, 0] S1x256
  slices_S4x96x256_S1x96x256_3_0_0 : S4x96x256.Slices ![3, 0, 0] S1x96x256
  slices_S4x256_S1x256_3_0 : S4x256.Slices ![3, 0] S1x256
  concatenates_S50000x256_S50000x256_S50000x256_S50000x256_S50000x1024_d1 : Shape.Concatenates [S50000x256, S50000x256, S50000x256, S50000x256] S50000x1024 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x256_S50000x256_1_0_0_1_n_n_wf : DotDims.WF S50000x96 S96x256 S50000x256 [1] [0] [0] [1] [] []
  dot_S50000x1024_S1024x256_S50000x256_1_0_0_1_n_n_wf : DotDims.WF S50000x1024 S1024x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf

class Facts : Prop extends Facts₀ where

variable [Facts]
-- ==== Proof.EntryK.lean ====
/-
  The fused program up to its one kernel region: what every buffer holds when the region is entered (the host
  operations before it applied to the launch contents), that none of those operations writes an argument array, each
  window's block at a grid point read off the array the region finds, and how the frame claim follows from a run
  that ends with the arrays at what the region's proof data says.
-/
import proofs.«109132_j87600152969918_1_alg».proof.Proof.Gen.Kernel.Launch
import proofs.«109132_j87600152969918_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the five stretches of host operations applied, in order, to the
    launch contents. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation of the five stretches allocates a buffer of its own. -/
private theorem hostOps0_fresh : (hostOps0 : List (HloOp τ sig (Elt F))).Forall fun op => op.fresh = ∅ := by
  simp only [List.Forall]; repeat' constructor
private theorem hostOps0_1_fresh : (hostOps0_1 : List (HloOp τ sig (Elt F))).Forall fun op => op.fresh = ∅ := by
  simp only [List.Forall]; repeat' constructor
private theorem hostOps0_2_fresh : (hostOps0_2 : List (HloOp τ sig (Elt F))).Forall fun op => op.fresh = ∅ := by
  simp only [List.Forall]; repeat' constructor
private theorem hostOps0_3_fresh : (hostOps0_3 : List (HloOp τ sig (Elt F))).Forall fun op => op.fresh = ∅ := by
  simp only [List.Forall]; repeat' constructor
private theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (windows 1 to 4 are
    fetched at the first point only and their index never moves), for any proof data whose array is `V`'s and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays at
    what the library computes from the proof data and every other unscoped buffer as the region found it leaves the six
    argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (((h c).1 1).trans ((dats 0 c).arrAt_in 1 rfl _)).trans ((hA c 1).trans (V_main_arg2 m c)),
      (((h c).1 2).trans ((dats 0 c).arrAt_in 2 rfl _)).trans ((hA c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

end Cert.Kernel.Hand

end
-- ==== Proof.OutK.lean ====
/-
  What the fused kernel's body leaves in its output block, as one pure term of the five input blocks it loads from.

  The body reads, for each of the four feature rows `h`, slab `h` of the node block (2000 × 96), of the first weights
  (96 × 256), of the first biases (256) and of the second weights (256 × 256), and once the second bias (1 × 256); it
  stores one 2000 × 256 value covering the whole output block.
-/
import proofs.«109132_j87600152969918_1_alg».proof.Proof.Gen.Kernel.Launch
import proofs.«109132_j87600152969918_1_alg».proof.Proof.Gen.Kernel.Skeleton
import proofs.«109132_j87600152969918_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-! ## The rectangles the body loads and stores through -/

/-- Slab `h` of the node block. -/
abbrev rN0 : Rect S4x2000x96 := Rect.unit (s := S4x2000x96) ![0, 0, 0] S1x2000x96.size inb_S4x2000x96_S1x2000x96_0_0_0
abbrev rN1 : Rect S4x2000x96 := Rect.unit (s := S4x2000x96) ![1, 0, 0] S1x2000x96.size inb_S4x2000x96_S1x2000x96_1_0_0
abbrev rN2 : Rect S4x2000x96 := Rect.unit (s := S4x2000x96) ![2, 0, 0] S1x2000x96.size inb_S4x2000x96_S1x2000x96_2_0_0
abbrev rN3 : Rect S4x2000x96 := Rect.unit (s := S4x2000x96) ![3, 0, 0] S1x2000x96.size inb_S4x2000x96_S1x2000x96_3_0_0
/-- Slab `h` of the first weights. -/
abbrev rW0 : Rect S4x96x256 := Rect.unit (s := S4x96x256) ![0, 0, 0] S1x96x256.size inb_S4x96x256_S1x96x256_0_0_0
abbrev rW1 : Rect S4x96x256 := Rect.unit (s := S4x96x256) ![1, 0, 0] S1x96x256.size inb_S4x96x256_S1x96x256_1_0_0
abbrev rW2 : Rect S4x96x256 := Rect.unit (s := S4x96x256) ![2, 0, 0] S1x96x256.size inb_S4x96x256_S1x96x256_2_0_0
abbrev rW3 : Rect S4x96x256 := Rect.unit (s := S4x96x256) ![3, 0, 0] S1x96x256.size inb_S4x96x256_S1x96x256_3_0_0
/-- Row `h` of the first biases. -/
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
/-- Slab `h` of the second weights. -/
abbrev rF0 : Rect S4x256x256 := Rect.unit (s := S4x256x256) ![0, 0, 0] S1x256x256.size inb_S4x256x256_S1x256x256_0_0_0
abbrev rF1 : Rect S4x256x256 := Rect.unit (s := S4x256x256) ![1, 0, 0] S1x256x256.size inb_S4x256x256_S1x256x256_1_0_0
abbrev rF2 : Rect S4x256x256 := Rect.unit (s := S4x256x256) ![2, 0, 0] S1x256x256.size inb_S4x256x256_S1x256x256_2_0_0
abbrev rF3 : Rect S4x256x256 := Rect.unit (s := S4x256x256) ![3, 0, 0] S1x256x256.size inb_S4x256x256_S1x256x256_3_0_0
/-- The second bias, whole. -/
abbrev rC : Rect S1x256 := Rect.unit (s := S1x256) ![0, 0] S1x256.size inb_S1x256_S1x256_0_0
/-- The output block, whole. -/
abbrev rO : Rect S2000x256 := Rect.unit (s := S2000x256) ![0, 0] S2000x256.size inb_S2000x256_S2000x256_0_0

/-! ## The stored value -/

/-- The one value the body stores, from the five input blocks: rows 0 and 1 accumulated first, then row 2, then row 3
    with the second bias and the closing `max · 0`. -/
def stored (x0 : Vec F S4x2000x96 .f32) (x1 : Vec F S4x96x256 .f32) (x2 : Vec F S4x256 .f32) (x3 : Vec F S4x256x256 .f32)
    (x4 : Vec F S1x256 .f32) : FVec F S2000x256 .f32 :=
  k0_pay1
    (k0_pay5
      (k0_pay2 (View.ld x0 rN0) (View.ld x1 rW0) (View.ld x2 rB0) (View.ld x3 rF0))
      (k0_pay3 (View.ld x0 rN1) (View.ld x1 rW1) (View.ld x2 rB1))
      k0_pay4
      (View.ld x3 rF1) (View.ld x0 rN2) (View.ld x1 rW2) (View.ld x2 rB2) (View.ld x3 rF2))
    (k0_pay6 (View.ld x0 rN3)) (k0_pay7 (View.ld x1 rW3)) (View.ld x2 rB3) (View.ld x3 rF3) (View.ld x4 rC)

/-- The output block after the body: its one store, which covers it. -/
def out0_5 (x0 : Vec F S4x2000x96 .f32) (x1 : Vec F S4x96x256 .f32) (x2 : Vec F S4x256 .f32) (x3 : Vec F S4x256x256 .f32)
    (x4 : Vec F S1x256 .f32) : Vec F S2000x256 .f32 :=
  View.canon [⟨rO, stored x0 x1 x2 x3 x4⟩]

/-- The one store covers the block. -/
theorem cover0_5 (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

end Cert.Kernel.Hand

end
-- ==== Proof.BodyK.lean ====
/-
  The fused kernel's body as a triple: on whole staging buffers, the five inputs' at given contents and the output's at
  anything, it runs without a fault and returns the inputs' as they were and the output's at `out0_5` of the inputs'.
-/
import proofs.«109132_j87600152969918_1_alg».proof.Proof.OutK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple. The printed function is its skeleton over the named payloads; the two parts it calls are theirs. -/
theorem sound_kernel (c : Dev nD) (E : Set ℕ) (i : grid0.Coords)
    (arg1 : Memref sig .tc .vmem S4x2000x96 .f32) (harg1 : arg1.IsWhole) (arg2 : Memref sig .tc .vmem S4x96x256 .f32) (harg2 : arg2.IsWhole)
    (arg3 : Memref sig .tc .vmem S4x256 .f32) (harg3 : arg3.IsWhole) (arg4 : Memref sig .tc .vmem S4x256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S4x2000x96 .f32) (x1 : Vec F S4x96x256 .f32) (x2 : Vec F S4x256 .f32) (x3 : Vec F S4x256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  -- The printed body and its two parts are their skeletons: loads and one store over the named payloads.
  simp only [cc0__fused_kernel_eq_skeleton]; unfold cc0__fused_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- Every load reads through a unit rectangle of a whole buffer and leaves that buffer as it was; the load of the
  -- output block reads whatever the block holds, and its value is dropped; the one store writes the whole block.
  sl_exec
  sl_step
  iapply Hk
  -- The five input buffers are unchanged.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- The output buffer holds its old contents overwritten by the one stored piece; that piece covers the block, so
  -- the block reads as the canon of the piece, whatever was there before. The stored value is `stored` of the inputs
  -- up to projecting the parts' returned tuples, without opening any payload.
  iexists _; isplitr
  swap; · iexact H5
  ipureintro
  exact View.read_writes_eq_canon _ _ _ (cover0_5 _)

end Cert.Kernel.Hand

end
-- ==== Proof.RunK.lean ====
/-
  The fused program's run: the proof data of its one pipeline (each input window's buffer at its block, the output
  window's at `out0_5` of the five input blocks), the body obligation at every grid point from the body's triple, the
  run to the end with every array of the pipeline at what the proof data says, and the frame claim.
-/
import proofs.«109132_j87600152969918_1_alg».proof.Proof.EntryK
import proofs.«109132_j87600152969918_1_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and the
    output's at `out0_5` of the input blocks; the invariant the scoped rest and the generator register, untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.EntryKI.lean ====
/-
  The fused program up to its one kernel region: what every buffer holds when the region is entered (the host
  operations before it applied to the launch contents), that none of those operations writes an argument array, each
  window's block at a grid point read off the array the region finds, and how the frame claim follows from a run
  that ends with the arrays at what the region's proof data says.
-/
import proofs.«109132_j87600152969918_1_alg».proof.Proof.Gen.KernelIdeal.Launch
import proofs.«109132_j87600152969918_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the five stretches of host operations applied, in order, to the
    launch contents. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation of the five stretches allocates a buffer of its own. -/
private theorem hostOps0_fresh : (hostOps0 : List (HloOp τ sig (Elt F))).Forall fun op => op.fresh = ∅ := by
  simp only [List.Forall]; repeat' constructor
private theorem hostOps0_1_fresh : (hostOps0_1 : List (HloOp τ sig (Elt F))).Forall fun op => op.fresh = ∅ := by
  simp only [List.Forall]; repeat' constructor
private theorem hostOps0_2_fresh : (hostOps0_2 : List (HloOp τ sig (Elt F))).Forall fun op => op.fresh = ∅ := by
  simp only [List.Forall]; repeat' constructor
private theorem hostOps0_3_fresh : (hostOps0_3 : List (HloOp τ sig (Elt F))).Forall fun op => op.fresh = ∅ := by
  simp only [List.Forall]; repeat' constructor
private theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (windows 1 to 4 are
    fetched at the first point only and their index never moves), for any proof data whose array is `V`'s and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays at
    what the library computes from the proof data and every other unscoped buffer as the region found it leaves the six
    argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (((h c).1 1).trans ((dats 0 c).arrAt_in 1 rfl _)).trans ((hA c 1).trans (V_main_arg2 m c)),
      (((h c).1 2).trans ((dats 0 c).arrAt_in 2 rfl _)).trans ((hA c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

end Cert.KernelIdeal.Hand

end
-- ==== Proof.OutKI.lean ====
/-
  What the fused kernel's body leaves in its output block, as one pure term of the five input blocks it loads from.

  The body reads, for each of the four feature rows `h`, slab `h` of the node block (2000 × 96), of the first weights
  (96 × 256), of the first biases (256) and of the second weights (256 × 256), and once the second bias (1 × 256); it
  stores one 2000 × 256 value covering the whole output block.
-/
import proofs.«109132_j87600152969918_1_alg».proof.Proof.Gen.KernelIdeal.Launch
import proofs.«109132_j87600152969918_1_alg».proof.Proof.Gen.KernelIdeal.Skeleton
import proofs.«109132_j87600152969918_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The rectangles the body loads and stores through -/

/-- Slab `h` of the node block. -/
abbrev rN0 : Rect S4x2000x96 := Rect.unit (s := S4x2000x96) ![0, 0, 0] S1x2000x96.size inb_S4x2000x96_S1x2000x96_0_0_0
abbrev rN1 : Rect S4x2000x96 := Rect.unit (s := S4x2000x96) ![1, 0, 0] S1x2000x96.size inb_S4x2000x96_S1x2000x96_1_0_0
abbrev rN2 : Rect S4x2000x96 := Rect.unit (s := S4x2000x96) ![2, 0, 0] S1x2000x96.size inb_S4x2000x96_S1x2000x96_2_0_0
abbrev rN3 : Rect S4x2000x96 := Rect.unit (s := S4x2000x96) ![3, 0, 0] S1x2000x96.size inb_S4x2000x96_S1x2000x96_3_0_0
/-- Slab `h` of the first weights. -/
abbrev rW0 : Rect S4x96x256 := Rect.unit (s := S4x96x256) ![0, 0, 0] S1x96x256.size inb_S4x96x256_S1x96x256_0_0_0
abbrev rW1 : Rect S4x96x256 := Rect.unit (s := S4x96x256) ![1, 0, 0] S1x96x256.size inb_S4x96x256_S1x96x256_1_0_0
abbrev rW2 : Rect S4x96x256 := Rect.unit (s := S4x96x256) ![2, 0, 0] S1x96x256.size inb_S4x96x256_S1x96x256_2_0_0
abbrev rW3 : Rect S4x96x256 := Rect.unit (s := S4x96x256) ![3, 0, 0] S1x96x256.size inb_S4x96x256_S1x96x256_3_0_0
/-- Row `h` of the first biases. -/
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
/-- Slab `h` of the second weights. -/
abbrev rF0 : Rect S4x256x256 := Rect.unit (s := S4x256x256) ![0, 0, 0] S1x256x256.size inb_S4x256x256_S1x256x256_0_0_0
abbrev rF1 : Rect S4x256x256 := Rect.unit (s := S4x256x256) ![1, 0, 0] S1x256x256.size inb_S4x256x256_S1x256x256_1_0_0
abbrev rF2 : Rect S4x256x256 := Rect.unit (s := S4x256x256) ![2, 0, 0] S1x256x256.size inb_S4x256x256_S1x256x256_2_0_0
abbrev rF3 : Rect S4x256x256 := Rect.unit (s := S4x256x256) ![3, 0, 0] S1x256x256.size inb_S4x256x256_S1x256x256_3_0_0
/-- The second bias, whole. -/
abbrev rC : Rect S1x256 := Rect.unit (s := S1x256) ![0, 0] S1x256.size inb_S1x256_S1x256_0_0
/-- The output block, whole. -/
abbrev rO : Rect S2000x256 := Rect.unit (s := S2000x256) ![0, 0] S2000x256.size inb_S2000x256_S2000x256_0_0

/-! ## The stored value -/

/-- The one value the body stores, from the five input blocks: rows 0 and 1 accumulated first, then row 2, then row 3
    with the second bias and the closing `max · 0`. -/
def stored (x0 : Vec F S4x2000x96 .f32) (x1 : Vec F S4x96x256 .f32) (x2 : Vec F S4x256 .f32) (x3 : Vec F S4x256x256 .f32)
    (x4 : Vec F S1x256 .f32) : FVec F S2000x256 .f32 :=
  k0_pay1
    (k0_pay5
      (k0_pay2 (View.ld x0 rN0) (View.ld x1 rW0) (View.ld x2 rB0) (View.ld x3 rF0))
      (k0_pay3 (View.ld x0 rN1) (View.ld x1 rW1) (View.ld x2 rB1))
      k0_pay4
      (View.ld x3 rF1) (View.ld x0 rN2) (View.ld x1 rW2) (View.ld x2 rB2) (View.ld x3 rF2))
    (k0_pay6 (View.ld x0 rN3)) (k0_pay7 (View.ld x1 rW3)) (View.ld x2 rB3) (View.ld x3 rF3) (View.ld x4 rC)

/-- The output block after the body: its one store, which covers it. -/
def out0_5 (x0 : Vec F S4x2000x96 .f32) (x1 : Vec F S4x96x256 .f32) (x2 : Vec F S4x256 .f32) (x3 : Vec F S4x256x256 .f32)
    (x4 : Vec F S1x256 .f32) : Vec F S2000x256 .f32 :=
  View.canon [⟨rO, stored x0 x1 x2 x3 x4⟩]

/-- The one store covers the block. -/
theorem cover0_5 (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

end Cert.KernelIdeal.Hand

end
-- ==== Proof.BodyKI.lean ====
/-
  The fused kernel's body as a triple: on whole staging buffers, the five inputs' at given contents and the output's at
  anything, it runs without a fault and returns the inputs' as they were and the output's at `out0_5` of the inputs'.
-/
import proofs.«109132_j87600152969918_1_alg».proof.Proof.OutKI
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple. The printed function is its skeleton over the named payloads; the two parts it calls are theirs. -/
theorem sound_kernel (c : Dev nD) (E : Set ℕ) (i : grid0.Coords)
    (arg1 : Memref sig .tc .vmem S4x2000x96 .f32) (harg1 : arg1.IsWhole) (arg2 : Memref sig .tc .vmem S4x96x256 .f32) (harg2 : arg2.IsWhole)
    (arg3 : Memref sig .tc .vmem S4x256 .f32) (harg3 : arg3.IsWhole) (arg4 : Memref sig .tc .vmem S4x256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S4x2000x96 .f32) (x1 : Vec F S4x96x256 .f32) (x2 : Vec F S4x256 .f32) (x3 : Vec F S4x256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  -- The printed body and its two parts are their skeletons: loads and one store over the named payloads.
  simp only [cc0__fused_kernel_eq_skeleton]; unfold cc0__fused_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- Every load reads through a unit rectangle of a whole buffer and leaves that buffer as it was; the load of the
  -- output block reads whatever the block holds, and its value is dropped; the one store writes the whole block.
  sl_exec
  sl_step
  iapply Hk
  -- The five input buffers are unchanged.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- The output buffer holds its old contents overwritten by the one stored piece; that piece covers the block, so
  -- the block reads as the canon of the piece, whatever was there before. The stored value is `stored` of the inputs
  -- up to projecting the parts' returned tuples, without opening any payload.
  iexists _; isplitr
  swap; · iexact H5
  ipureintro
  exact View.read_writes_eq_canon _ _ _ (cover0_5 _)

end Cert.KernelIdeal.Hand

end
-- ==== Proof.RunKI.lean ====
/-
  The fused program's run: the proof data of its one pipeline (each input window's buffer at its block, the output
  window's at `out0_5` of the five input blocks), the body obligation at every grid point from the body's triple, the
  run to the end with every array of the pipeline at what the proof data says, and the frame claim.
-/
import proofs.«109132_j87600152969918_1_alg».proof.Proof.EntryKI
import proofs.«109132_j87600152969918_1_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and the
    output's at `out0_5` of the input blocks; the invariant the scoped rest and the generator register, untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The mathematics both programs compute, on the extended reals, with no program in sight.

  A node carries four feature rows of width 96 (its own normalised features and three rounds of neighbourhood
  averaging). Row `h` goes through its own affine map into 256 hidden units followed by `max · 0`; the four hidden
  rows are then combined by one linear map from 1024 to 256, a bias is added and `max · 0` applied once more.
  The linear map can be applied to the concatenated 1024 hidden units at once (`dense`), or block by block, one
  256 × 256 block per row, the four results added (`fused`). The two are the same sum of 1024 products grouped
  differently; addition on the extended reals is commutative and associative, so no finiteness is needed.
-/
import Idealize.ShloMosaic.PureOps.Ideal
import Mathlib.Algebra.BigOperators.Fin
import Mathlib.Logic.Equiv.Fin.Basic

noncomputable section

namespace Cert.Spec

open BigOperators

/-- Hidden unit `j` of one feature row: `max ((∑ᵢ Xᵢ · Wᵢⱼ) + bⱼ) 0`, the bias added once, outside the sum. -/
def hidden (X : Fin 96 → EReal) (W : Fin 96 → Fin 256 → EReal) (b : Fin 256 → EReal) (j : Fin 256) : EReal :=
  max ((∑ i : Fin 96, X i * W i j) + b j) 0

/-- One row's contribution to an output unit: its 256 hidden units against one column of its 256 × 256 block. -/
def hop (X : Fin 96 → EReal) (W : Fin 96 → Fin 256 → EReal) (b : Fin 256 → EReal) (Wf : Fin 256 → EReal) : EReal :=
  ∑ j : Fin 256, hidden X W b j * Wf j

/-- Block by block: the four rows' contributions added, then the bias, then `max · 0`. -/
def fused (X : Fin 4 → Fin 96 → EReal) (W : Fin 4 → Fin 96 → Fin 256 → EReal) (b : Fin 4 → Fin 256 → EReal)
    (Wf : Fin 4 → Fin 256 → EReal) (bf : EReal) : EReal :=
  max (hop (X 0) (W 0) (b 0) (Wf 0) + hop (X 1) (W 1) (b 1) (Wf 1) + hop (X 2) (W 2) (b 2) (Wf 2)
    + hop (X 3) (W 3) (b 3) (Wf 3) + bf) 0

/-- Which row a concatenated hidden unit belongs to, and which unit of that row it is. -/
def rowOf (q : Fin 1024) : Fin 4 := ⟨q.val / 256, by have := q.isLt; omega⟩
def unitOf (q : Fin 1024) : Fin 256 := ⟨q.val % 256, Nat.mod_lt _ (by decide)⟩
/-- Hidden unit `j` of row `h` in the concatenation. -/
def catIdx (h : Fin 4) (j : Fin 256) : Fin 1024 := ⟨h.val * 256 + j.val, by have := h.isLt; have := j.isLt; omega⟩

/-- All at once: the 1024 concatenated hidden units against one column of the 1024 × 256 map. -/
def dense (X : Fin 4 → Fin 96 → EReal) (W : Fin 4 → Fin 96 → Fin 256 → EReal) (b : Fin 4 → Fin 256 → EReal)
    (Wc : Fin 1024 → EReal) (bf : EReal) : EReal :=
  max ((∑ q : Fin 1024, hidden (X (rowOf q)) (W (rowOf q)) (b (rowOf q)) (unitOf q) * Wc q) + bf) 0

theorem rowOf_catIdx (h : Fin 4) (j : Fin 256) : rowOf (catIdx h j) = h := by
  apply Fin.ext; show (h.val * 256 + j.val) / 256 = h.val; have := j.isLt; omega
theorem unitOf_catIdx (h : Fin 4) (j : Fin 256) : unitOf (catIdx h j) = j := by
  apply Fin.ext; show (h.val * 256 + j.val) % 256 = j.val; have := j.isLt; omega

/-- A sum over the 1024 concatenated units is the sum over rows of the sum over each row's units. -/
theorem sum_cat (f : Fin 1024 → EReal) : ∑ q : Fin 1024, f q = ∑ h : Fin 4, ∑ j : Fin 256, f (catIdx h j) := by
  rw [← Fintype.sum_prod_type']
  refine (Fintype.sum_equiv (finProdFinEquiv (m := 4) (n := 256)) _ _ fun x => ?_).symm
  congr 1
  apply Fin.ext
  show x.1.val * 256 + x.2.val = x.2.val + 256 * x.1.val
  omega

/-- Block by block is all at once, when the blocks are the map's four row bands. -/
theorem fused_eq_dense (X : Fin 4 → Fin 96 → EReal) (W : Fin 4 → Fin 96 → Fin 256 → EReal) (b : Fin 4 → Fin 256 → EReal)
    (Wc : Fin 1024 → EReal) (bf : EReal) :
    fused X W b (fun h j => Wc (catIdx h j)) bf = dense X W b Wc bf := by
  unfold fused dense hop
  rw [sum_cat, Fin.sum_univ_four]
  simp only [rowOf_catIdx, unitOf_catIdx]

end Cert.Spec

end
-- ==== Proof.Payload.lean ====
/-
  The value the fused kernel's body stores, read at one entry of the output block, on the extended reals: row `p` of
  the node block's four slabs goes through the four affine maps and `max · 0`, each hidden row meets column `q` of its
  own 256 × 256 block, the four sums are added, then the second bias, then `max · 0` — `Cert.Spec.fused`.
  Changes of float format are the identity on the extended reals, a matrix product into a zero accumulator is the plain
  sum of products, and adding the zero the accumulation starts from changes nothing.
-/
import proofs.«109132_j87600152969918_1_alg».proof.Proof.OutKI
import proofs.«109132_j87600152969918_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Reading a loaded slab at an index -/

/-- Slab `h` of a rank-3 array, loaded as a block with a leading unit axis, read at `(0, p, i)` is the array at `(h, p, i)`. -/
private theorem ld_slab3 {Val : EltTy → Type} {e : EltTy} {A B C : Nat} (X : (⟨3, ![A, B, C]⟩ : Shape).Idx → Val e) (h : Fin A)
    (inb : ∀ a, (![h.val, 0, 0] : Fin 3 → Nat) a + (⟨3, ![1, B, C]⟩ : Shape).size a ≤ (⟨3, ![A, B, C]⟩ : Shape).size a)
    (p : Fin B) (i : Fin C) :
    View.ld X (Rect.unit (s := ⟨3, ![A, B, C]⟩) ![h.val, 0, 0] (⟨3, ![1, B, C]⟩ : Shape).size inb) (ix3 0 p i) = X (ix3 h p i) := by
  show X _ = X _
  congr 1
  funext a
  apply Fin.ext
  match a with
  | ⟨0, _⟩ => show h.val + 1 * 0 = h.val; omega
  | ⟨1, _⟩ => show 0 + 1 * p.val = p.val; omega
  | ⟨2, _⟩ => show 0 + 1 * i.val = i.val; omega

/-- Row `h` of a rank-2 array, loaded as a block with a leading unit axis, read at `(0, j)` is the array at `(h, j)`. -/
private theorem ld_slab2 {Val : EltTy → Type} {e : EltTy} {A B : Nat} (X : (⟨2, ![A, B]⟩ : Shape).Idx → Val e) (h : Fin A)
    (inb : ∀ a, (![h.val, 0] : Fin 2 → Nat) a + (⟨2, ![1, B]⟩ : Shape).size a ≤ (⟨2, ![A, B]⟩ : Shape).size a)
    (j : Fin B) :
    View.ld X (Rect.unit (s := ⟨2, ![A, B]⟩) ![h.val, 0] (⟨2, ![1, B]⟩ : Shape).size inb) (ix2 0 j) = X (ix2 h j) := by
  show X _ = X _
  congr 1
  funext a
  apply Fin.ext
  match a with
  | ⟨0, _⟩ => show h.val + 1 * 0 = h.val; omega
  | ⟨1, _⟩ => show 0 + 1 * j.val = j.val; omega

/-! ## Layout operations at an index -/

/-- Dropping the leading unit axis of a `[1, a, b]` block: entry `(p, i)` is the block's `(0, p, i)`. -/
private theorem drop3_apply {α : Type} {a b : Nat} (v : (⟨3, ![1, a, b]⟩ : Shape).Idx → α)
    (h : (⟨3, ![1, a, b]⟩ : Shape).ShapeCasts ⟨2, ![a, b]⟩) (p : Fin a) (i : Fin b) :
    shapeCast ⟨2, ![a, b]⟩ v h (ix2 p i) = v (ix3 0 p i) := by
  refine shapeCast_apply v h (ix2 p i) (ix3 0 p i) ?_
  rw [Shape.rowMajor_val_three, Shape.rowMajor_val_two]
  show (0 * a + p.val) * b + i.val = p.val * b + i.val
  rw [Nat.zero_mul, Nat.zero_add]

/-- A `[1, n]` row flattened to `[n]` and back is the row. -/
private theorem row_roundtrip {α : Type} {n : Nat} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩) :
    shapeCast ⟨2, ![1, n]⟩ (shapeCast ⟨1, ![n]⟩ v h1) h2 = v :=
  shapeCast_shapeCast v h1 h2

/-- A `[1, n]` row broadcast down `m` rows: entry `(p, j)` is the row's `(0, j)`. -/
private theorem bcast_row_apply {α : Type} {m n : Nat} (v : (⟨2, ![1, n]⟩ : Shape).Idx → α)
    (h : (⟨2, ![1, n]⟩ : Shape).Broadcasts ⟨2, ![m, n]⟩) (hn : n ≠ 1) (p : Fin m) (j : Fin n) :
    broadcastTo ⟨2, ![m, n]⟩ v h (ix2 p j) = v (ix2 0 j) := by
  refine broadcastTo_apply v h (ix2 p j) (ix2 0 j) fun a => ?_
  match a with
  | ⟨0, _⟩ => rfl
  | ⟨1, _⟩ =>
    show j.val = if n = 1 then 0 else j.val
    rw [if_neg hn]

/-! ## The two matrix products at an index -/

private theorem lhs_mm96_0 (i : S2000x256.Idx) (q : dot_S2000x96_S96x256_S2000x256_1_0_0_1_n_n.contr.Idx) :
    (dot_S2000x96_S96x256_S2000x256_1_0_0_1_n_n.lhsIdx i q 0).val = (i 0).val := by
  unfold DotDims.lhsIdx
  rw [dif_neg (show ¬(0 : Fin S2000x96.rank) ∈ dot_S2000x96_S96x256_S2000x256_1_0_0_1_n_n.lhsBatch by decide), dif_pos (show (0 : Fin S2000x96.rank) ∈ dot_S2000x96_S96x256_S2000x256_1_0_0_1_n_n.lhsNonContracting by decide)]
  rfl
private theorem lhs_mm96_1 (i : S2000x256.Idx) (q : dot_S2000x96_S96x256_S2000x256_1_0_0_1_n_n.contr.Idx) :
    (dot_S2000x96_S96x256_S2000x256_1_0_0_1_n_n.lhsIdx i q 1).val = (q ⟨0, by decide⟩).val :=
  dot_S2000x96_S96x256_S2000x256_1_0_0_1_n_n.lhsIdx_val_of_single rfl i q
private theorem rhs_mm96_0 (i : S2000x256.Idx) (q : dot_S2000x96_S96x256_S2000x256_1_0_0_1_n_n.contr.Idx) :
    (dot_S2000x96_S96x256_S2000x256_1_0_0_1_n_n.rhsIdx i q 0).val = (q ⟨0, by decide⟩).val :=
  dot_S2000x96_S96x256_S2000x256_1_0_0_1_n_n.rhsIdx_val_of_single rfl i q
private theorem rhs_mm96_1 (i : S2000x256.Idx) (q : dot_S2000x96_S96x256_S2000x256_1_0_0_1_n_n.contr.Idx) :
    (dot_S2000x96_S96x256_S2000x256_1_0_0_1_n_n.rhsIdx i q 1).val = (i 1).val := by
  unfold DotDims.rhsIdx
  rw [dif_neg (show ¬(1 : Fin S96x256.rank) ∈ dot_S2000x96_S96x256_S2000x256_1_0_0_1_n_n.rhsBatch by decide), dif_pos (show (1 : Fin S96x256.rank) ∈ dot_S2000x96_S96x256_S2000x256_1_0_0_1_n_n.rhsNonContracting by decide)]
  rfl

/-- A 2000 × 96 by 96 × 256 product into a zero accumulator, at `(p, q)`: the plain sum of the 96 products. -/
private theorem mm96_apply (lhs : FVec Ideal S2000x96 .bf16) (rhs : FVec Ideal S96x256 .bf16) (p : Fin 2000) (q : Fin 256) :
    matmul dot_S2000x96_S96x256_S2000x256_1_0_0_1_n_n none lhs rhs (constant (F := Ideal) S2000x256 .f32 0x00000000#32) (ix2 p q)
      = ∑ k : Fin 96, lhs (ix2 p k) * rhs (ix2 k q) := by
  simp only [matmul]
  rw [Ideal.matmul_constant_zero_apply, ← Equiv.sum_comp (ValueIdx.contrEquiv1 dot_S2000x96_S96x256_S2000x256_1_0_0_1_n_n 96 rfl rfl).symm]
  refine Finset.sum_congr rfl fun k _ => ?_
  have hk := ValueIdx.contrEquiv1_symm_val dot_S2000x96_S96x256_S2000x256_1_0_0_1_n_n 96 rfl rfl k
  have el : dot_S2000x96_S96x256_S2000x256_1_0_0_1_n_n.lhsIdx (ix2 p q) ((ValueIdx.contrEquiv1 dot_S2000x96_S96x256_S2000x256_1_0_0_1_n_n 96 rfl rfl).symm k) = ix2 p k := funext fun a => Fin.ext (by
    match a with
    | ⟨0, _⟩ => exact lhs_mm96_0 _ _
    | ⟨1, _⟩ => exact (lhs_mm96_1 _ _).trans hk)
  have er : dot_S2000x96_S96x256_S2000x256_1_0_0_1_n_n.rhsIdx (ix2 p q) ((ValueIdx.contrEquiv1 dot_S2000x96_S96x256_S2000x256_1_0_0_1_n_n 96 rfl rfl).symm k) = ix2 k q := funext fun a => Fin.ext (by
    match a with
    | ⟨0, _⟩ => exact (rhs_mm96_0 _ _).trans hk
    | ⟨1, _⟩ => exact rhs_mm96_1 _ _)
  rw [el, er]

private theorem lhs_mm256_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lhs_mm256_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem rhs_mm256_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem rhs_mm256_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 by 256 × 256 product into a zero accumulator, at `(p, q)`: the plain sum of the 256 products. -/
private theorem mm256_apply (lhs : FVec Ideal S2000x256 .bf16) (rhs : FVec Ideal S256x256 .bf16) (p : Fin 2000) (q : Fin 256) :
    matmul dot_S2000x256_S256x256_S2000x256_1_0_0_1_n_n none lhs rhs (constant (F := Ideal) S2000x256 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_mm256_0 _ _
    | ⟨1, _⟩ => exact (lhs_mm256_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_mm256_0 _ _).trans hk
    | ⟨1, _⟩ => exact rhs_mm256_1 _ _)
  rw [el, er]

/-! ## The payloads at an index -/

/-- The zero the closing `max` compares with is the extended real `0`. -/
private theorem zero_splat : (Scalar.ofBits (F := Ideal) .f32 0x00000000#32) = (0 : EReal) := Ideal.ofBits_zero_f32

/-- The node slab of row 3 without its unit axis (the change of float format is the identity). -/
private theorem pay6_apply (N : Vec Ideal S1x2000x96 .f32) (p : Fin 2000) (i : Fin 96) :
    k0_pay6 (F := Ideal) N (ix2 p i) = N (ix3 0 p i) := by
  unfold k0_pay6
  exact drop3_apply N _ p i

/-- The first-weights slab of row 3 without its unit axis. -/
private theorem pay7_apply (W : Vec Ideal S1x96x256 .f32) (i : Fin 96) (j : Fin 256) :
    k0_pay7 (F := Ideal) W (ix2 i j) = W (ix3 0 i j) := by
  unfold k0_pay7
  exact drop3_apply W _ i j

/-- The zero block row 1's hidden units are compared with. -/
private theorem pay4_apply (p : Fin 2000) (j : Fin 256) : (k0_pay4 (F := Ideal)) (ix2 p j) = (0 : EReal) := by
  unfold k0_pay4
  exact zero_splat

/-- Row 1 before its `max · 0`: the 96 products summed, plus the bias. -/
private theorem pay3_apply (N : Vec Ideal S1x2000x96 .f32) (W : Vec Ideal S1x96x256 .f32) (B : Vec Ideal S1x256 .f32)
    (p : Fin 2000) (j : Fin 256) :
    k0_pay3 (F := Ideal) N W B (ix2 p j) = (∑ i : Fin 96, N (ix3 0 p i) * W (ix3 0 i j)) + B (ix2 0 j) := by
  unfold k0_pay3
  simp only [addf_apply, truncf_apply, mm96_apply, row_roundtrip, bcast_row_apply _ _ (by decide : (256 : Nat) ≠ 1), drop3_apply]

/-- Row 0's contribution: its hidden units against column `q` of its block, the accumulation starting from zero. -/
private theorem pay2_apply (N : Vec Ideal S1x2000x96 .f32) (W : Vec Ideal S1x96x256 .f32) (B : Vec Ideal S1x256 .f32)
    (Fm : Vec Ideal S1x256x256 .f32) (p : Fin 2000) (q : Fin 256) :
    k0_pay2 (F := Ideal) N W B Fm (ix2 p q)
      = Cert.Spec.hop (fun i => N (ix3 0 p i)) (fun i j => W (ix3 0 i j)) (fun j => B (ix2 0 j)) (fun j => Fm (ix3 0 j q)) := by
  unfold k0_pay2
  simp only [addf_apply, maximumf_apply, truncf_apply, broadcast_apply, mm96_apply, mm256_apply, row_roundtrip, bcast_row_apply _ _ (by decide : (256 : Nat) ≠ 1), drop3_apply, zero_splat]
  unfold Cert.Spec.hop Cert.Spec.hidden
  exact zero_add _

/-- Rows 0 to 2 accumulated: what came in, plus row 1's hidden units (its `max` taken here) against its block, plus
    row 2's contribution. -/
private theorem pay5_apply (v20 v32 v33 : FVec Ideal S2000x256 .f32) (F1 : Vec Ideal S1x256x256 .f32)
    (N : Vec Ideal S1x2000x96 .f32) (W : Vec Ideal S1x96x256 .f32) (B : Vec Ideal S1x256 .f32)
    (F2 : Vec Ideal S1x256x256 .f32) (p : Fin 2000) (q : Fin 256) :
    k0_pay5 (F := Ideal) v20 v32 v33 F1 N W B F2 (ix2 p q)
      = (v20 (ix2 p q) + ∑ j : Fin 256, max (v32 (ix2 p j)) (v33 (ix2 p j)) * F1 (ix3 0 j q))
        + Cert.Spec.hop (fun i => N (ix3 0 p i)) (fun i j => W (ix3 0 i j)) (fun j => B (ix2 0 j)) (fun j => F2 (ix3 0 j q)) := by
  unfold k0_pay5
  simp only [addf_apply, maximumf_apply, truncf_apply, broadcast_apply, mm96_apply, mm256_apply, row_roundtrip, bcast_row_apply _ _ (by decide : (256 : Nat) ≠ 1), drop3_apply, zero_splat]
  unfold Cert.Spec.hop Cert.Spec.hidden
  rfl

/-- The stored value: what came in, plus row 3's contribution, plus the second bias, then `max · 0`. -/
private theorem pay1_apply (v60 : FVec Ideal S2000x256 .f32) (v63 : FVec Ideal S2000x96 .bf16) (v66 : FVec Ideal S96x256 .bf16)
    (B : Vec Ideal S1x256 .f32) (Fm : Vec Ideal S1x256x256 .f32) (C : Vec Ideal S1x256 .f32) (p : Fin 2000) (q : Fin 256) :
    k0_pay1 (F := Ideal) v60 v63 v66 B Fm C (ix2 p q)
      = max ((v60 (ix2 p q)
          + Cert.Spec.hop (fun i => v63 (ix2 p i)) (fun i j => v66 (ix2 i j)) (fun j => B (ix2 0 j)) (fun j => Fm (ix3 0 j q)))
          + C (ix2 0 q)) 0 := by
  unfold k0_pay1
  simp only [addf_apply, maximumf_apply, truncf_apply, broadcast_apply, mm96_apply, mm256_apply, row_roundtrip, bcast_row_apply _ _ (by decide : (256 : Nat) ≠ 1), drop3_apply, zero_splat]
  unfold Cert.Spec.hop Cert.Spec.hidden
  rfl

/-- The stored value at entry `(p, q)`. -/
theorem stored_apply (x0 : Vec Ideal S4x2000x96 .f32) (x1 : Vec Ideal S4x96x256 .f32) (x2 : Vec Ideal S4x256 .f32)
    (x3 : Vec Ideal S4x256x256 .f32) (x4 : Vec Ideal S1x256 .f32) (p : Fin 2000) (q : Fin 256) :
    stored (F := Ideal) x0 x1 x2 x3 x4 (ix2 p q)
      = Cert.Spec.fused (fun h i => x0 (ix3 h p i)) (fun h i j => x1 (ix3 h i j)) (fun h j => x2 (ix2 h j))
          (fun h j => x3 (ix3 h j q)) (x4 (ix2 0 q)) := by
  have eN0 : ∀ i, View.ld x0 rN0 (ix3 0 p i) = x0 (ix3 0 p i) := fun i => ld_slab3 x0 0 _ p i
  have eN1 : ∀ i, View.ld x0 rN1 (ix3 0 p i) = x0 (ix3 1 p i) := fun i => ld_slab3 x0 1 _ p i
  have eN2 : ∀ i, View.ld x0 rN2 (ix3 0 p i) = x0 (ix3 2 p i) := fun i => ld_slab3 x0 2 _ p i
  have eN3 : ∀ i, View.ld x0 rN3 (ix3 0 p i) = x0 (ix3 3 p i) := fun i => ld_slab3 x0 3 _ p i
  have eW0 : ∀ i j, View.ld x1 rW0 (ix3 0 i j) = x1 (ix3 0 i j) := fun i j => ld_slab3 x1 0 _ i j
  have eW1 : ∀ i j, View.ld x1 rW1 (ix3 0 i j) = x1 (ix3 1 i j) := fun i j => ld_slab3 x1 1 _ i j
  have eW2 : ∀ i j, View.ld x1 rW2 (ix3 0 i j) = x1 (ix3 2 i j) := fun i j => ld_slab3 x1 2 _ i j
  have eW3 : ∀ i j, View.ld x1 rW3 (ix3 0 i j) = x1 (ix3 3 i j) := fun i j => ld_slab3 x1 3 _ i j
  have eB0 : ∀ j, View.ld x2 rB0 (ix2 0 j) = x2 (ix2 0 j) := fun j => ld_slab2 x2 0 _ j
  have eB1 : ∀ j, View.ld x2 rB1 (ix2 0 j) = x2 (ix2 1 j) := fun j => ld_slab2 x2 1 _ j
  have eB2 : ∀ j, View.ld x2 rB2 (ix2 0 j) = x2 (ix2 2 j) := fun j => ld_slab2 x2 2 _ j
  have eB3 : ∀ j, View.ld x2 rB3 (ix2 0 j) = x2 (ix2 3 j) := fun j => ld_slab2 x2 3 _ j
  have eF0 : ∀ j, View.ld x3 rF0 (ix3 0 j q) = x3 (ix3 0 j q) := fun j => ld_slab3 x3 0 _ j q
  have eF1 : ∀ j, View.ld x3 rF1 (ix3 0 j q) = x3 (ix3 1 j q) := fun j => ld_slab3 x3 1 _ j q
  have eF2 : ∀ j, View.ld x3 rF2 (ix3 0 j q) = x3 (ix3 2 j q) := fun j => ld_slab3 x3 2 _ j q
  have eF3 : ∀ j, View.ld x3 rF3 (ix3 0 j q) = x3 (ix3 3 j q) := fun j => ld_slab3 x3 3 _ j q
  have eC : View.ld x4 rC (ix2 0 q) = x4 (ix2 0 q) := ld_slab2 x4 0 _ q
  unfold stored
  rw [pay1_apply, pay5_apply, pay2_apply]
  simp only [pay3_apply, pay4_apply, pay6_apply, pay7_apply]
  unfold Cert.Spec.fused Cert.Spec.hop Cert.Spec.hidden
  simp only [eN0, eN1, eN2, eN3, eW0, eW1, eW2, eW3, eB0, eB1, eB2, eB3, eF0, eF1, eF2, eF3, eC]

/-- The output block after the body at entry `(p, q)`: its one store covers the block, so it is the stored value. -/
theorem out0_5_apply (x0 : Vec Ideal S4x2000x96 .f32) (x1 : Vec Ideal S4x96x256 .f32) (x2 : Vec Ideal S4x256 .f32)
    (x3 : Vec Ideal S4x256x256 .f32) (x4 : Vec Ideal S1x256 .f32) (p : Fin 2000) (q : Fin 256) :
    out0_5 (F := Ideal) x0 x1 x2 x3 x4 (ix2 p q)
      = Cert.Spec.fused (fun h i => x0 (ix3 h p i)) (fun h i j => x1 (ix3 h i j)) (fun h j => x2 (ix2 h j))
          (fun h j => x3 (ix3 h j q)) (x4 (ix2 0 q)) := by
  have hz : (![0, 0] : Fin S2000x256.rank → Nat) = fun _ => 0 := by
    funext a
    match a with
    | ⟨0, _⟩ => rfl
    | ⟨1, _⟩ => rfl
  unfold out0_5
  rw [View.canon_unit_zero hz]
  exact stored_apply x0 x1 x2 x3 x4 p q

end Cert.KernelIdeal.Hand

end
-- ==== Proof.KernelValue.lean ====
/-
  What the fused program's result array holds after the run, on the extended reals, as one function of the arrays the
  region finds: entry `(n, k)` is `Cert.Spec.fused` of node `n`'s four feature rows, the four first-layer maps, and
  column `k` of the four 256 × 256 blocks. Grid point `t` writes back rows `2000 t … 2000 t + 1999`; the 25 blocks tile
  the 50000 rows, so the array ends holding that function everywhere.
-/
import proofs.«109132_j87600152969918_1_alg».proof.Proof.RunKI
import proofs.«109132_j87600152969918_1_alg».proof.Proof.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds, at their literal types -/

/-- The four feature rows of every node, stacked: [4, 50000, 96]. -/
abbrev narr (c : Dev nD) : Vec Ideal S4x50000x96 .f32 := V m c main_v82
/-- The first-layer weights [4, 96, 256] and biases [4, 256] (argument arrays). -/
abbrev warr (c : Dev nD) : Vec Ideal S4x96x256 .f32 := V m c main_arg2
abbrev barr (c : Dev nD) : Vec Ideal S4x256 .f32 := V m c main_arg3
/-- The second-layer weights cut into four 256 × 256 blocks [4, 256, 256], and its bias as a row [1, 256]. -/
abbrev farr (c : Dev nD) : Vec Ideal S4x256x256 .f32 := V m c main_v83
abbrev carr (c : Dev nD) : Vec Ideal S1x256 .f32 := V m c main_v84

/-- Entry `(n, k)` of the result. -/
def outAt (c : Dev nD) (n : Fin 50000) (k : Fin 256) : EReal :=
  Cert.Spec.fused (fun h i => narr m c (ix3 h n i)) (fun h i j => warr m c (ix3 h i j)) (fun h j => barr m c (ix2 h j))
    (fun h j => farr m c (ix3 h j k)) (carr m c (ix2 0 k))

/-- The result array as one function of its index. -/
def Gout (c : Dev nD) : Vec Ideal S50000x256 .f32 := fun i => outAt m c ⟨(i 0).val, (i 0).isLt⟩ ⟨(i 1).val, (i 1).isLt⟩

theorem Gout_apply (c : Dev nD) (n : Fin 50000) (k : Fin 256) : Gout m c (ix2 n k) = outAt m c n k := rfl

/-! ## The grid and its blocks -/

/-- The grid has 25 points. -/
private theorem point_lt (t : Fin cfg0.N) : t.val < 25 :=
  lt_of_lt_of_eq t.isLt N_0

/-- The printed index maps, decided once over the grid: the node window and the result window move along their row axis
    with the point, every other block index is 0. -/
private theorem index_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `2000 t + p` of the array. -/
private def rowAt (t : Fin cfg0.N) (p : Fin 2000) : Fin 50000 :=
  ⟨2000 * t.val + p.val, by have := point_lt t; have := p.isLt; omega⟩

/-! ## The input blocks, at their literal types, read off the arrays -/

private abbrev nblk (c : Dev nD) (t : Fin cfg0.N) : Vec Ideal S4x2000x96 .f32 := iblk m c 0 t
private abbrev wblk (c : Dev nD) (t : Fin cfg0.N) : Vec Ideal S4x96x256 .f32 := iblk m c 1 t
private abbrev bblk (c : Dev nD) (t : Fin cfg0.N) : Vec Ideal S4x256 .f32 := iblk m c 2 t
private abbrev fblk (c : Dev nD) (t : Fin cfg0.N) : Vec Ideal S4x256x256 .f32 := iblk m c 3 t
private abbrev cblk (c : Dev nD) (t : Fin cfg0.N) : Vec Ideal S1x256 .f32 := iblk m c 4 t

/-- The node block at point `t` holds rows `2000 t … 2000 t + 1999` of each of the four stacked feature arrays. -/
private theorem nblk_apply (c : Dev nD) (t : Fin cfg0.N) (h : Fin 4) (p : Fin 2000) (i : Fin 96) :
    nblk m c t (ix3 h p i) = narr m c (ix3 h (rowAt t p) i) := by
  obtain ⟨e0, e1, e2, -⟩ := index_facts t
  show V m c main_v82 (((cfg0.win 0).blk t).view.emb (ix3 h p i)) = V m c main_v82 (ix3 h (rowAt t p) i)
  congr 1
  funext a; apply Fin.ext
  match a with
  | ⟨0, _⟩ => show win0_0.index t (0 : Fin 3) * 4 + 1 * h.val = h.val; rw [e0]; omega
  | ⟨1, _⟩ => show win0_0.index t (1 : Fin 3) * 2000 + 1 * p.val = 2000 * t.val + p.val; rw [e1]; omega
  | ⟨2, _⟩ => show win0_0.index t (2 : Fin 3) * 96 + 1 * i.val = i.val; rw [e2]; omega

/-- The four single-block windows hold their whole arrays at every point. -/
private theorem wblk_apply (c : Dev nD) (t : Fin cfg0.N) (h : Fin 4) (i : Fin 96) (j : Fin 256) :
    wblk m c t (ix3 h i j) = warr m c (ix3 h i j) := by
  obtain ⟨-, -, -, e0, e1, e2, -⟩ := index_facts t
  show V m c main_arg2 (((cfg0.win 1).blk t).view.emb (ix3 h i j)) = V m c main_arg2 (ix3 h i j)
  congr 1
  funext a; apply Fin.ext
  match a with
  | ⟨0, _⟩ => show win0_1.index t (0 : Fin 3) * 4 + 1 * h.val = h.val; rw [e0]; omega
  | ⟨1, _⟩ => show win0_1.index t (1 : Fin 3) * 96 + 1 * i.val = i.val; rw [e1]; omega
  | ⟨2, _⟩ => show win0_1.index t (2 : Fin 3) * 256 + 1 * j.val = j.val; rw [e2]; omega

private theorem bblk_apply (c : Dev nD) (t : Fin cfg0.N) (h : Fin 4) (j : Fin 256) :
    bblk m c t (ix2 h j) = barr m c (ix2 h j) := by
  obtain ⟨-, -, -, -, -, -, e0, e1, -⟩ := index_facts t
  show V m c main_arg3 (((cfg0.win 2).blk t).view.emb (ix2 h j)) = V m c main_arg3 (ix2 h j)
  congr 1
  funext a; apply Fin.ext
  match a with
  | ⟨0, _⟩ => show win0_2.index t (0 : Fin 2) * 4 + 1 * h.val = h.val; rw [e0]; omega
  | ⟨1, _⟩ => show win0_2.index t (1 : Fin 2) * 256 + 1 * j.val = j.val; rw [e1]; omega

private theorem fblk_apply (c : Dev nD) (t : Fin cfg0.N) (h : Fin 4) (j : Fin 256) (k : Fin 256) :
    fblk m c t (ix3 h j k) = farr m c (ix3 h j k) := by
  obtain ⟨-, -, -, -, -, -, -, -, e0, e1, e2, -⟩ := index_facts t
  show V m c main_v83 (((cfg0.win 3).blk t).view.emb (ix3 h j k)) = V m c main_v83 (ix3 h j k)
  congr 1
  funext a; apply Fin.ext
  match a with
  | ⟨0, _⟩ => show win0_3.index t (0 : Fin 3) * 4 + 1 * h.val = h.val; rw [e0]; omega
  | ⟨1, _⟩ => show win0_3.index t (1 : Fin 3) * 256 + 1 * j.val = j.val; rw [e1]; omega
  | ⟨2, _⟩ => show win0_3.index t (2 : Fin 3) * 256 + 1 * k.val = k.val; rw [e2]; omega

private theorem cblk_apply (c : Dev nD) (t : Fin cfg0.N) (z : Fin 1) (k : Fin 256) :
    cblk m c t (ix2 z k) = carr m c (ix2 z k) := by
  obtain ⟨-, -, -, -, -, -, -, -, -, -, -, e0, e1, -⟩ := index_facts t
  show V m c main_v84 (((cfg0.win 4).blk t).view.emb (ix2 z k)) = V m c main_v84 (ix2 z k)
  congr 1
  funext a; apply Fin.ext
  match a with
  | ⟨0, _⟩ => show win0_4.index t (0 : Fin 2) * 1 + 1 * z.val = z.val; rw [e0]; omega
  | ⟨1, _⟩ => show win0_4.index t (1 : Fin 2) * 256 + 1 * k.val = k.val; rw [e1]; omega

/-! ## From blocks to the array -/

/-- What grid point `t` writes back is block `t` of `Gout`. -/
theorem flushed5_eq (c : Dev nD) (t : Fin cfg0.N) :
    (dats m 0 c).flushed 5 t = ((cfg0.win 5).blk t).view.read (Elt Ideal) (Gout m c) := by
  show (cfg0.win 5).cut (grid0.coords t) ((dats m 0 c).after 5 t) = _
  rw [after0_5]
  obtain ⟨-, -, -, -, -, -, -, -, -, -, -, -, -, e0, e1⟩ := index_facts t
  funext j
  obtain ⟨p, q, rfl⟩ : ∃ (p : Fin 2000) (q : Fin 256), j = ix2 p q := ⟨j 0, j 1, eq_ix2 j⟩
  have hemb : ((cfg0.win 5).blk t).view.emb (ix2 p q) = (ix2 (rowAt t p) q : S50000x256.Idx) := by
    funext a; apply Fin.ext
    match a with
    | ⟨0, _⟩ => show win0_5.index t (0 : Fin 2) * 2000 + 1 * p.val = 2000 * t.val + p.val; rw [e0]; omega
    | ⟨1, _⟩ => show win0_5.index t (1 : Fin 2) * 256 + 1 * q.val = q.val; rw [e1]; omega
  show out0_5 (nblk m c t) (wblk m c t) (bblk m c t) (fblk m c t) (cblk m c t) (ix2 p q)
    = Gout m c (((cfg0.win 5).blk t).view.emb (ix2 p q))
  rw [hemb, Gout_apply, out0_5_apply]
  unfold outAt
  simp only [nblk_apply, wblk_apply, bblk_apply, fblk_apply, cblk_apply]

/-- An index of the result array is in point `t`'s block iff each coordinate is in the block's range on its axis. -/
private theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v85).slice (win0_5.rect t)).set ↔ _
  rw [View.set_slice_whole, Rect.mem_set_unit]
  exact Iff.rfl

/-- Every index of the result array lies in some grid point's block. -/
theorem cover5 (i : S50000x256.Idx) : ∃ t : Fin cfg0.N, (cfg0.win 5).flush t = true ∧ i ∈ ((cfg0.win 5).blk t).view.set := by
  -- row `r` lies in the block of point `r / 2000`
  have h0 : (i 0).val < 50000 := (i 0).isLt
  have h1 : (i 1).val < 256 := (i 1).isLt
  have ht : (i 0).val / 2000 < cfg0.N := lt_of_lt_of_eq (by omega) N_0.symm
  obtain ⟨-, -, -, -, -, -, -, -, -, -, -, -, -, e0, e1⟩ := index_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]
    omega

/-- The result array after the run. -/
theorem final5 (c : Dev nD) : (dats m 0 c).arrAt 5 cfg0.N = Gout m c :=
  (dats m 0 c).arrAt_eq_of_cover 5 (Gout m c) (fun t _ => flushed5_eq m c t) cover5

/-- The run, read: the result array at `Gout`, the six argument arrays as launched. -/
theorem run : θ_run defs (onTc (τ := τ) (main (F := Ideal))) ⟨m, fun _ => 0, ρ⟩ fun r => ∀ c : Dev nD,
      r.2.mem ((c.tc : Thread nD τ).loc main_v85) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  -- the result array is window 5's; the first weights and biases are windows 1 and 2, staged and never written back;
  -- the other four argument arrays are staged by no window
  (θ_run defs _ _).mono (fun _ h c =>
    ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Hand

end
-- ==== Proof.HeadLayout.lean ====
/-
  Three arrays the fused program's region finds, read back through the layout operations that made them: the stacked
  features are the four feature arrays laid one after the other along a new leading axis; the second-layer weights
  [1024, 256] are re-laid as four 256 × 256 blocks, block `h` holding rows `256 h … 256 h + 255`; the second bias [256]
  is re-laid as one row.
-/
import proofs.«109132_j87600152969918_1_alg».proof.Proof.EntryKI
import proofs.«109132_j87600152969918_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The last seven host operations

The three arrays are written by the last seven of the host operations before the region: four liftings of a feature
array [50000, 96] to [1, 50000, 96], their stacking along the new axis, and the two re-layings of argument arrays.
Everything before them is kept as one valuation `W`; only the seven are read through. -/

/-- Core `c`'s buffers before the last seven host operations. -/
private abbrev W (c : Dev nD) : Valuation τ sig (Elt F) :=
  StableHlo.after (List.flatten [hostOps0, hostOps0_1, hostOps0_2, hostOps0_3] ++ (hostOps0_4 (F := F)).take 53)
    (fun b => m (c, b))

/-- The host operations are those before the last seven, then the last seven. -/
private theorem flat_split :
    List.flatten [hostOps0, hostOps0_1, hostOps0_2, hostOps0_3, hostOps0_4 (F := F)]
      = (List.flatten [hostOps0, hostOps0_1, hostOps0_2, hostOps0_3] ++ (hostOps0_4 (F := F)).take 53)
          ++ (hostOps0_4 (F := F)).drop 53 := by
  rw [List.append_assoc, List.take_append_drop]
  simp only [List.flatten_cons, List.flatten_nil, List.append_nil, List.append_assoc]

/-- A buffer when the region is entered is that buffer after the last seven operations run from `W`. -/
private theorem V_split (c : Dev nD) (b : Ref sig .tc) :
    V m c b = StableHlo.after ((hostOps0_4 (F := F)).drop 53) (W m c) b := by
  show StableHlo.after (List.flatten [hostOps0, hostOps0_1, hostOps0_2, hostOps0_3, hostOps0_4]) (fun b => m (c, b)) b = _
  rw [flat_split, StableHlo.after_append]

/-- None of the last seven operations writes a feature array. -/
private theorem V_v38_W (c : Dev nD) : V m c main_v38 = W m c main_v38 := by
  rw [V_split m c main_v38]; dsimp only [hostOps0_4, List.drop]; after_results <;> try rfl
private theorem V_v51_W (c : Dev nD) : V m c main_v51 = W m c main_v51 := by
  rw [V_split m c main_v51]; dsimp only [hostOps0_4, List.drop]; after_results <;> try rfl
private theorem V_v64_W (c : Dev nD) : V m c main_v64 = W m c main_v64 := by
  rw [V_split m c main_v64]; dsimp only [hostOps0_4, List.drop]; after_results <;> try rfl
private theorem V_v77_W (c : Dev nD) : V m c main_v77 = W m c main_v77 := by
  rw [V_split m c main_v77]; dsimp only [hostOps0_4, List.drop]; after_results <;> try rfl

/-- The second bias as the region finds it is the argument re-laid as one row. -/
private theorem V_v84_eq (c : Dev nD) : (V m c main_v84 : Vec F S1x256 .f32)
    = fun i => shapeCast S1x256 (V m c main_arg5 : Vec F S256 .f32) shapeCasts_S256_S1x256 i := by
  rw [V_split m c main_v84, V_split m c main_arg5]
  dsimp only [hostOps0_4, List.drop]
  after_results
  rfl

/-- The second-layer weights as the region finds them are the argument re-laid as four blocks. -/
private theorem V_v83_eq (c : Dev nD) : (V m c main_v83 : Vec F S4x256x256 .f32)
    = fun i => shapeCast S4x256x256 (V m c main_arg4 : Vec F S1024x256 .f32) shapeCasts_S1024x256_S4x256x256 i := by
  rw [V_split m c main_v83, V_split m c main_arg4]
  dsimp only [hostOps0_4, List.drop]
  after_results
  rfl

set_option maxHeartbeats 1000000 in
/-- The last seven operations run from any buffers `G0`: the stack they leave is `G0`'s four feature arrays, each lifted
    to a leading unit axis, laid one after the other along that axis. -/
private theorem tail_v82 (G0 : Valuation τ sig (Elt F)) :
    (StableHlo.after ((hostOps0_4 (F := F)).drop 53) G0 (Proc.devRef .tc main_v82) : Vec F S4x50000x96 .f32)
      = concatenate S4x50000x96 0
        [⟨S1x50000x96, broadcastInDim S1x50000x96 ![1, 2] bcast_S50000x96_S1x50000x96_1_2 (G0 (Proc.devRef .tc main_v38) : Vec F S50000x96 .f32)⟩,
         ⟨S1x50000x96, broadcastInDim S1x50000x96 ![1, 2] bcast_S50000x96_S1x50000x96_1_2 (G0 (Proc.devRef .tc main_v51) : Vec F S50000x96 .f32)⟩,
         ⟨S1x50000x96, broadcastInDim S1x50000x96 ![1, 2] bcast_S50000x96_S1x50000x96_1_2 (G0 (Proc.devRef .tc main_v64) : Vec F S50000x96 .f32)⟩,
         ⟨S1x50000x96, broadcastInDim S1x50000x96 ![1, 2] bcast_S50000x96_S1x50000x96_1_2 (G0 (Proc.devRef .tc main_v77) : Vec F S50000x96 .f32)⟩]
        concatenates_S1x50000x96_S1x50000x96_S1x50000x96_S1x50000x96_S4x50000x96_d0 := by
  dsimp only [hostOps0_4, List.drop]
  simp only [StableHlo.after_cons, StableHlo.after_nil]
  rw [StableHlo.reshape_result_ne]; rotate_left; decide
  rw [StableHlo.reshape_result_ne]; rotate_left; decide
  -- the buffers after the four liftings, named; each lifted array read off them
  generalize hG : HloOp.result (StableHlo.unary main_v77 main_v81 _ _ _) _ = G
  have e78 : (G (Proc.devRef .tc main_v78) : Vec F S1x50000x96 .f32)
      = broadcastInDim S1x50000x96 ![1, 2] bcast_S50000x96_S1x50000x96_1_2 (G0 (Proc.devRef .tc main_v38) : Vec F S50000x96 .f32) := by
    rw [← hG]
    repeat (first | rw [StableHlo.unary_result] | (rw [StableHlo.unary_result_ne]; rotate_left; decide))
  have e79 : (G (Proc.devRef .tc main_v79) : Vec F S1x50000x96 .f32)
      = broadcastInDim S1x50000x96 ![1, 2] bcast_S50000x96_S1x50000x96_1_2 (G0 (Proc.devRef .tc main_v51) : Vec F S50000x96 .f32) := by
    rw [← hG]
    repeat (first | rw [StableHlo.unary_result] | (rw [StableHlo.unary_result_ne]; rotate_left; decide))
  have e80 : (G (Proc.devRef .tc main_v80) : Vec F S1x50000x96 .f32)
      = broadcastInDim S1x50000x96 ![1, 2] bcast_S50000x96_S1x50000x96_1_2 (G0 (Proc.devRef .tc main_v64) : Vec F S50000x96 .f32) := by
    rw [← hG]
    repeat (first | rw [StableHlo.unary_result] | (rw [StableHlo.unary_result_ne]; rotate_left; decide))
  have e81 : (G (Proc.devRef .tc main_v81) : Vec F S1x50000x96 .f32)
      = broadcastInDim S1x50000x96 ![1, 2] bcast_S50000x96_S1x50000x96_1_2 (G0 (Proc.devRef .tc main_v77) : Vec F S50000x96 .f32) := by
    rw [← hG]
    repeat (first | rw [StableHlo.unary_result] | (rw [StableHlo.unary_result_ne]; rotate_left; decide))
  rw [StableHlo.nary4_result, ← e78, ← e79, ← e80, ← e81]
  -- both sides now speak of the same four lifted arrays; the family of four read at its four places
  generalize G (Proc.devRef .tc main_v78) = b0
  generalize G (Proc.devRef .tc main_v79) = b1
  generalize G (Proc.devRef .tc main_v80) = b2
  generalize G (Proc.devRef .tc main_v81) = b3
  rfl

/-- The stacked features as the region finds them are the four feature arrays, each lifted to a leading unit axis,
    laid one after the other along that axis. -/
private theorem V_v82_eq (c : Dev nD) : (V m c main_v82 : Vec F S4x50000x96 .f32)
    = concatenate S4x50000x96 0
        [⟨S1x50000x96, broadcastInDim S1x50000x96 ![1, 2] bcast_S50000x96_S1x50000x96_1_2 (V m c main_v38 : Vec F S50000x96 .f32)⟩,
         ⟨S1x50000x96, broadcastInDim S1x50000x96 ![1, 2] bcast_S50000x96_S1x50000x96_1_2 (V m c main_v51 : Vec F S50000x96 .f32)⟩,
         ⟨S1x50000x96, broadcastInDim S1x50000x96 ![1, 2] bcast_S50000x96_S1x50000x96_1_2 (V m c main_v64 : Vec F S50000x96 .f32)⟩,
         ⟨S1x50000x96, broadcastInDim S1x50000x96 ![1, 2] bcast_S50000x96_S1x50000x96_1_2 (V m c main_v77 : Vec F S50000x96 .f32)⟩]
        concatenates_S1x50000x96_S1x50000x96_S1x50000x96_S1x50000x96_S4x50000x96_d0 := by
  rw [V_v38_W, V_v51_W, V_v64_W, V_v77_W, V_split m c main_v82]
  exact tail_v82 (W m c)

/-! ## The layout operations, read at an index -/

/-- A feature array lifted to a leading unit axis reads, at `(u, n, i)`, the array at `(n, i)`. -/
private theorem lift_apply (A : Vec F S50000x96 .f32) (u : Fin 1) (n : Fin 50000) (i : Fin 96) :
    broadcastInDim S1x50000x96 ![1, 2] bcast_S50000x96_S1x50000x96_1_2 A (ix3 u n i) = A (ix2 n i) :=
  broadcastInDim_apply _ _ A _ _ fun a => match a with | ⟨0, _⟩ => rfl | ⟨1, _⟩ => rfl

/-- Four arrays, each lifted to a leading unit axis and laid one after the other along it, read at `(h, n, i)`: array `h`
    at `(n, i)`. -/
private theorem stack_apply (A0 A1 A2 A3 : Vec F S50000x96 .f32) (h : Fin 4) (n : Fin 50000) (i : Fin 96) :
    concatenate S4x50000x96 0
        [⟨S1x50000x96, broadcastInDim S1x50000x96 ![1, 2] bcast_S50000x96_S1x50000x96_1_2 A0⟩,
         ⟨S1x50000x96, broadcastInDim S1x50000x96 ![1, 2] bcast_S50000x96_S1x50000x96_1_2 A1⟩,
         ⟨S1x50000x96, broadcastInDim S1x50000x96 ![1, 2] bcast_S50000x96_S1x50000x96_1_2 A2⟩,
         ⟨S1x50000x96, broadcastInDim S1x50000x96 ![1, 2] bcast_S50000x96_S1x50000x96_1_2 A3⟩]
        concatenates_S1x50000x96_S1x50000x96_S1x50000x96_S1x50000x96_S4x50000x96_d0 (ix3 h n i)
      = (![A0, A1, A2, A3] h) (ix2 n i) := by
  refine (concatenate_ofFn_unit_apply (t := S4x50000x96) (s₁ := S1x50000x96) (0 : Fin 3)
    ![broadcastInDim S1x50000x96 ![1, 2] bcast_S50000x96_S1x50000x96_1_2 A0,
      broadcastInDim S1x50000x96 ![1, 2] bcast_S50000x96_S1x50000x96_1_2 A1,
      broadcastInDim S1x50000x96 ![1, 2] bcast_S50000x96_S1x50000x96_1_2 A2,
      broadcastInDim S1x50000x96 ![1, 2] bcast_S50000x96_S1x50000x96_1_2 A3]
    concatenates_S1x50000x96_S1x50000x96_S1x50000x96_S1x50000x96_S4x50000x96_d0 rfl rfl (ix3 h n i) h rfl
    (ix3 (0 : Fin 1) n i) (fun b hb => match b, hb with
      | ⟨0, _⟩, hb => absurd rfl hb
      | ⟨1, _⟩, _ => rfl
      | ⟨2, _⟩, _ => rfl)).trans ?_
  fin_cases h <;> exact lift_apply _ _ _ _

/-- Feature row `h` of node `n` in the stack is entry `(n, i)` of feature array `h`. -/
theorem V_v82_apply (c : Dev nD) (h : Fin 4) (n : Fin 50000) (i : Fin 96) :
    (V m c main_v82 : Vec F S4x50000x96 .f32) (ix3 h n i)
      = (![(V m c main_v38 : Vec F S50000x96 .f32), V m c main_v51, V m c main_v64, V m c main_v77] h) (ix2 n i) := by
  rw [V_v82_eq]
  exact stack_apply _ _ _ _ h n i

/-- Entry `(j, q)` of block `h` of the second-layer weights is entry `(256 h + j, q)` of the argument. -/
theorem V_v83_apply (c : Dev nD) (h : Fin 4) (j q : Fin 256) :
    (V m c main_v83 : Vec F S4x256x256 .f32) (ix3 h j q)
      = (m ((c.tc : Thread nD τ).loc main_arg4) : Vec F S1024x256 .f32) (ix2 (Cert.Spec.catIdx h j) q) := by
  rw [V_v83_eq, V_main_arg4]
  exact shapeCast_apply _ shapeCasts_S1024x256_S4x256x256 (ix3 h j q) (ix2 (Cert.Spec.catIdx h j) q) (by
    rw [Shape.rowMajor_val_two, Shape.rowMajor_val_three]
    rfl)

/-- The second bias as a row. -/
theorem V_v84_apply (c : Dev nD) (q : Fin 256) :
    (V m c main_v84 : Vec F S1x256 .f32) (ix2 0 q) = (m ((c.tc : Thread nD τ).loc main_arg5) : Vec F S256 .f32) (ix1 q) := by
  rw [V_v84_eq, V_main_arg5]
  exact shapeCast_a_1a_apply _ shapeCasts_S256_S1x256 0 q

end Cert.KernelIdeal.Hand

end
-- ==== Proof.HeadStages.lean ====
/-
  The four feature arrays the fused program's region finds — the row-normalised features and one, two and three rounds
  of degree-normalised neighbourhood sums — are made by the same host operations, in the same order, as the reference
  program makes its own: each is the reference's stage function of the same argument arrays.
-/
import proofs.«109132_j87600152969918_1_alg».proof.Proof.EntryKI
import proofs.«109132_j87600152969918_1_alg».proof.Proof.ReadP
import proofs.«109132_j87600152969918_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Reads a buffer of `V` back to the composed term of the argument arrays it is made from. The five stretches of host
    operations are spelled out as one list; walking it from the end, each operation's result at its own buffer is its
    function's value at its operands, and at any other buffer what was there before. Operands that stand inside the list
    of pieces of a joined array are read the same way, one rewriting step at a time; last, the casts between a typed
    reference's contents and its buffer's are identities and are removed. -/
local macro "read_back" : tactic =>
  `(tactic| (
    dsimp only [V]
    simp only [hostOps0, hostOps0_1, hostOps0_2, hostOps0_3, hostOps0_4, List.flatten_cons, List.flatten_nil, List.append_nil,
      List.cons_append, List.nil_append]
    after_results_simp
    repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))
    try simp only [StableHlo.TRef.ofBuf, StableHlo.TRef.toBuf, cast_eq]))

/-! ## The four feature arrays are the reference's stages

Up to the last of these arrays the two programs run the same operations in the same order on the same buffers, and the
shape names, dimension records and stated facts each side cites are the same literals (the facts are proofs of
propositions). So each array, read back to its composed term of the argument arrays, is the reference's stage function
unfolded, and the two sides agree by definition. -/

set_option maxHeartbeats 4000000 in
/-- The row-normalised features: the feature array divided, row by row, by the larger of the square root of the row's
    sum of squares and a small positive constant (each first spread over the row's 96 columns). -/
theorem V_v38_eq (c : Dev nD) :
    (V m c main_v38 : Vec F S50000x96 .f32)
      = Cert.ReferenceIdeal.ReadP.val_main_v38 (F := F) (m ((c.tc : Thread nD τ).loc main_arg1)) := by
  read_back
  rfl
set_option maxHeartbeats 8000000 in
/-- One round. The index array's two rows, each followed by 0, 1, …, 49999 (one loop per node), are the entries' first and
    second ends; an entry weighs 1 if it is an added loop or its given ends differ, else 0; a node's degree is the sum of
    the weights of the entries whose first end it is, and its factor the inverse square root of its degree where that is
    positive, else 0. The round gathers the normalised features' rows at the entries' second ends, scales each by the
    entry's weight and its two ends' factors, and adds them into zeros at the entries' first ends. -/
theorem V_v51_eq (c : Dev nD) :
    (V m c main_v51 : Vec F S50000x96 .f32)
      = Cert.ReferenceIdeal.ReadP.val_main_v51 (F := F) (m ((c.tc : Thread nD τ).loc main_arg0)) (m ((c.tc : Thread nD τ).loc main_arg1)) := by
  read_back
  rfl
set_option maxHeartbeats 8000000 in
/-- Two rounds: the same gather, scaling and sum, taken of the one-round array. -/
theorem V_v64_eq (c : Dev nD) :
    (V m c main_v64 : Vec F S50000x96 .f32)
      = Cert.ReferenceIdeal.ReadP.val_main_v64 (F := F) (m ((c.tc : Thread nD τ).loc main_arg0)) (m ((c.tc : Thread nD τ).loc main_arg1)) := by
  read_back
  rfl
set_option maxHeartbeats 8000000 in
/-- Three rounds: the same gather, scaling and sum, taken of the two-round array. -/
theorem V_v77_eq (c : Dev nD) :
    (V m c main_v77 : Vec F S50000x96 .f32)
      = Cert.ReferenceIdeal.ReadP.val_main_v77 (F := F) (m ((c.tc : Thread nD τ).loc main_arg0)) (m ((c.tc : Thread nD τ).loc main_arg1)) := by
  read_back
  rfl

end Cert.KernelIdeal.Hand

end
-- ==== Proof.RefOps.lean ====
/-
  The reference program's 154 host operations cut in two: the first 102 build, from the edge list and the features, the
  four feature arrays (the last of them writes the third round of neighbourhood sums); the remaining 52 are the dense
  layers. Running a list of operations one after another is running its first part and then its second.
-/
import proofs.«109132_j87600152969918_1_alg».proof.Proof.RunP
import proofs.«109132_j87600152969918_1_alg».proof.Proof.ReadP
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The state after a line of operations is the state after its second part, started from the state after its first. -/
theorem after_append {τ : Topo} {sig : RefSig} {Val : EltTy → Type} (xs ys : List (HloOp τ sig Val)) (V : Valuation τ sig Val) :
    after (xs ++ ys) V = after ys (after xs V) := by
  induction xs generalizing V with
  | nil => rfl
  | cons x xs ih => exact ih _

/-- The operations that build the four feature arrays, and the dense layers after them. -/
abbrev headOps : List (HloOp τ sig (Elt F)) := (ops (F := F)).take 102
abbrev tailOps : List (HloOp τ sig (Elt F)) := (ops (F := F)).drop 102

theorem ops_split : (ops : List (HloOp τ sig (Elt F))) = headOps ++ tailOps := (List.take_append_drop 102 _).symm

end Cert.ReferenceIdeal.RefRun

end
-- ==== Proof.RefHead.lean ====
/-
  After the reference program's first 102 host operations, started from any contents, the four feature arrays are the
  read module's stage functions of the edge list and the features as they were at the start.
-/
import proofs.«109132_j87600152969918_1_alg».proof.Proof.RefOps

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

variable (L : Valuation τ sig (Elt F))

/-- Spells the first 102 operations out as one list. -/
local macro "head_list" : tactic =>
  `(tactic| (
    dsimp only [headOps]
    simp only [ops, List.take_succ_cons, List.take_zero]))

/-- Reads a buffer after the first 102 operations back to the composed term of the starting contents it is made from.
    Walking the list from its end, each operation's result at its own buffer is its function's value at its operands, and
    at any other buffer what was there before. Operands that stand inside the list of pieces of a joined array are read
    the same way, one rewriting step at a time; last, the casts between a typed reference's contents and its buffer's are
    identities and are removed. What is left is the stage function with its earlier stages unfolded. -/
local macro "read_head" : tactic =>
  `(tactic| (
    head_list
    after_results_simp
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
    try simp only [TRef.ofBuf, TRef.toBuf, cast_eq]))

set_option maxHeartbeats 4000000 in
theorem head_v38 : after headOps L (Proc.devRef .tc main_v38) = val_main_v38 (F := F) (L (Proc.devRef .tc main_arg1)) := by
  read_head
  rfl
set_option maxHeartbeats 8000000 in
theorem head_v51 : after headOps L (Proc.devRef .tc main_v51)
    = val_main_v51 (F := F) (L (Proc.devRef .tc main_arg0)) (L (Proc.devRef .tc main_arg1)) := by
  read_head
  rfl
set_option maxHeartbeats 8000000 in
theorem head_v64 : after headOps L (Proc.devRef .tc main_v64)
    = val_main_v64 (F := F) (L (Proc.devRef .tc main_arg0)) (L (Proc.devRef .tc main_arg1)) := by
  read_head
  rfl
set_option maxHeartbeats 8000000 in
theorem head_v77 : after headOps L (Proc.devRef .tc main_v77)
    = val_main_v77 (F := F) (L (Proc.devRef .tc main_arg0)) (L (Proc.devRef .tc main_arg1)) := by
  read_head
  rfl
set_option maxHeartbeats 4000000 in
/-- None of the 102 writes an argument array. -/
theorem head_arg2 : after headOps L (Proc.devRef .tc main_arg2) = L (Proc.devRef .tc main_arg2) := by
  head_list
  after_results_simp <;> rfl
set_option maxHeartbeats 4000000 in
theorem head_arg3 : after headOps L (Proc.devRef .tc main_arg3) = L (Proc.devRef .tc main_arg3) := by
  head_list
  after_results_simp <;> rfl
set_option maxHeartbeats 4000000 in
theorem head_arg4 : after headOps L (Proc.devRef .tc main_arg4) = L (Proc.devRef .tc main_arg4) := by
  head_list
  after_results_simp <;> rfl
set_option maxHeartbeats 4000000 in
theorem head_arg5 : after headOps L (Proc.devRef .tc main_arg5) = L (Proc.devRef .tc main_arg5) := by
  head_list
  after_results_simp <;> rfl

end Cert.ReferenceIdeal.RefRun

end
-- ==== Proof.RefTail.lean ====
/-
  The reference program's last 52 host operations, started from contents in which the four feature arrays are the read
  module's stage functions of some edge list and features, leave the result at the read module's last stage of those
  and of the four parameter arrays as they stand. They are read in two steps. The first 44 are the four rows' own
  layers — a slab of the first weights against the row's feature array, the row's bias, `max · 0` — each row's hidden
  array depending on one feature array only. The last 8 concatenate the four hidden arrays, apply the second layer's
  map and bias and `max · 0`; there the four hidden arrays are taken as given.
-/
import proofs.«109132_j87600152969918_1_alg».proof.Proof.RefOps

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The four rows' own layers, and the second layer over their concatenation. -/
abbrev hopOps : List (HloOp τ sig (Elt F)) := ((ops (F := F)).drop 102).take 44
abbrev lastOps : List (HloOp τ sig (Elt F)) := ((ops (F := F)).drop 102).drop 44

theorem tail_split : (tailOps : List (HloOp τ sig (Elt F))) = hopOps ++ lastOps := (List.take_append_drop 44 _).symm

/-! ## Each row's hidden array -/

set_option maxHeartbeats 4000000 in
theorem hop_v86 (G : Valuation τ sig (Elt F)) (x1 : (⟨S50000x96, .f32⟩ : BufTy).Contents (Elt F))
    (h38 : G (Proc.devRef .tc main_v38) = val_main_v38 (F := F) x1) :
    after hopOps G (Proc.devRef .tc main_v86)
      = val_main_v86 (F := F) x1 (G (Proc.devRef .tc main_arg2)) (G (Proc.devRef .tc main_arg3)) := by
  dsimp only [hopOps]
  simp only [ops, List.drop_succ_cons, List.drop_zero, List.take_succ_cons, List.take_zero]
  after_results_simp
  try simp only [TRef.ofBuf, TRef.toBuf, cast_eq]
  rw [h38]
  rfl

set_option maxHeartbeats 4000000 in
theorem hop_v95 (G : Valuation τ sig (Elt F)) (x0 : (⟨S2x800000, .i32⟩ : BufTy).Contents (Elt F)) (x1 : (⟨S50000x96, .f32⟩ : BufTy).Contents (Elt F))
    (h51 : G (Proc.devRef .tc main_v51) = val_main_v51 (F := F) x0 x1) :
    after hopOps G (Proc.devRef .tc main_v95)
      = val_main_v95 (F := F) x0 x1 (G (Proc.devRef .tc main_arg2)) (G (Proc.devRef .tc main_arg3)) := by
  dsimp only [hopOps]
  simp only [ops, List.drop_succ_cons, List.drop_zero, List.take_succ_cons, List.take_zero]
  after_results_simp
  try simp only [TRef.ofBuf, TRef.toBuf, cast_eq]
  rw [h51]
  rfl

set_option maxHeartbeats 4000000 in
theorem hop_v104 (G : Valuation τ sig (Elt F)) (x0 : (⟨S2x800000, .i32⟩ : BufTy).Contents (Elt F)) (x1 : (⟨S50000x96, .f32⟩ : BufTy).Contents (Elt F))
    (h64 : G (Proc.devRef .tc main_v64) = val_main_v64 (F := F) x0 x1) :
    after hopOps G (Proc.devRef .tc main_v104)
      = val_main_v104 (F := F) x0 x1 (G (Proc.devRef .tc main_arg2)) (G (Proc.devRef .tc main_arg3)) := by
  dsimp only [hopOps]
  simp only [ops, List.drop_succ_cons, List.drop_zero, List.take_succ_cons, List.take_zero]
  after_results_simp
  try simp only [TRef.ofBuf, TRef.toBuf, cast_eq]
  rw [h64]
  rfl

set_option maxHeartbeats 4000000 in
theorem hop_v113 (G : Valuation τ sig (Elt F)) (x0 : (⟨S2x800000, .i32⟩ : BufTy).Contents (Elt F)) (x1 : (⟨S50000x96, .f32⟩ : BufTy).Contents (Elt F))
    (h77 : G (Proc.devRef .tc main_v77) = val_main_v77 (F := F) x0 x1) :
    after hopOps G (Proc.devRef .tc main_v113)
      = val_main_v113 (F := F) x0 x1 (G (Proc.devRef .tc main_arg2)) (G (Proc.devRef .tc main_arg3)) := by
  dsimp only [hopOps]
  simp only [ops, List.drop_succ_cons, List.drop_zero, List.take_succ_cons, List.take_zero]
  after_results_simp
  try simp only [TRef.ofBuf, TRef.toBuf, cast_eq]
  rw [h77]
  rfl

/-- None of the 44 writes the second layer's parameters. -/
theorem hop_arg4 (G : Valuation τ sig (Elt F)) : after hopOps G (Proc.devRef .tc main_arg4) = G (Proc.devRef .tc main_arg4) := by
  dsimp only [hopOps]
  simp only [ops, List.drop_succ_cons, List.drop_zero, List.take_succ_cons, List.take_zero]
  after_results_simp <;> rfl
theorem hop_arg5 (G : Valuation τ sig (Elt F)) : after hopOps G (Proc.devRef .tc main_arg5) = G (Proc.devRef .tc main_arg5) := by
  dsimp only [hopOps]
  simp only [ops, List.drop_succ_cons, List.drop_zero, List.take_succ_cons, List.take_zero]
  after_results_simp <;> rfl

/-! ## The second layer over the four hidden arrays -/

set_option maxHeartbeats 4000000 in
theorem last_v119 (H : Valuation τ sig (Elt F)) (x0 : (⟨S2x800000, .i32⟩ : BufTy).Contents (Elt F)) (x1 : (⟨S50000x96, .f32⟩ : BufTy).Contents (Elt F))
    (x2 : (⟨S4x96x256, .f32⟩ : BufTy).Contents (Elt F)) (x3 : (⟨S4x256, .f32⟩ : BufTy).Contents (Elt F))
    (h86 : H (Proc.devRef .tc main_v86) = val_main_v86 (F := F) x1 x2 x3)
    (h95 : H (Proc.devRef .tc main_v95) = val_main_v95 (F := F) x0 x1 x2 x3)
    (h104 : H (Proc.devRef .tc main_v104) = val_main_v104 (F := F) x0 x1 x2 x3)
    (h113 : H (Proc.devRef .tc main_v113) = val_main_v113 (F := F) x0 x1 x2 x3) :
    after lastOps H (Proc.devRef .tc main_v119)
      = val_main_v119 (F := F) x0 x1 x2 x3 (H (Proc.devRef .tc main_arg4)) (H (Proc.devRef .tc main_arg5)) := by
  dsimp only [lastOps]
  simp only [ops, List.drop_succ_cons, List.drop_zero, List.take_succ_cons, List.take_zero]
  -- the four-operand concatenate is read with each operand at its own buffer; its operands are then the four given arrays
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  try simp only [TRef.ofBuf, TRef.toBuf, cast_eq]
  rw [h86, h95, h104, h113]
  rfl

/-! ## The 52 together -/

theorem tail_v119 (G : Valuation τ sig (Elt F))
    (x0 : (⟨S2x800000, .i32⟩ : BufTy).Contents (Elt F)) (x1 : (⟨S50000x96, .f32⟩ : BufTy).Contents (Elt F))
    (h38 : G (Proc.devRef .tc main_v38) = val_main_v38 (F := F) x1)
    (h51 : G (Proc.devRef .tc main_v51) = val_main_v51 (F := F) x0 x1)
    (h64 : G (Proc.devRef .tc main_v64) = val_main_v64 (F := F) x0 x1)
    (h77 : G (Proc.devRef .tc main_v77) = val_main_v77 (F := F) x0 x1) :
    after tailOps G (Proc.devRef .tc main_v119)
      = val_main_v119 (F := F) x0 x1 (G (Proc.devRef .tc main_arg2)) (G (Proc.devRef .tc main_arg3))
          (G (Proc.devRef .tc main_arg4)) (G (Proc.devRef .tc main_arg5)) := by
  rw [tail_split, after_append]
  refine (last_v119 (after hopOps G) x0 x1 _ _ (hop_v86 G x1 h38) (hop_v95 G x0 x1 h51) (hop_v104 G x0 x1 h64)
    (hop_v113 G x0 x1 h77)).trans ?_
  rw [hop_arg4, hop_arg5]

end Cert.ReferenceIdeal.RefRun

end
-- ==== Proof.RefRun.lean ====
/-
  The reference program's run: every weakly fair execution terminates, the result array at the read module's last
  stage of the six argument arrays as launched, the arguments unchanged. The result is read in two steps: the first 102
  operations leave the four feature arrays at their stage functions and the parameters untouched; the remaining 52 take
  those to the last stage.
-/
import proofs.«109132_j87600152969918_1_alg».proof.Proof.RefHead
import proofs.«109132_j87600152969918_1_alg».proof.Proof.RefTail

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The result buffer after all 154 operations. -/
theorem after_ops_v119 (L : Valuation τ sig (Elt F)) :
    after (ops : List (HloOp τ sig (Elt F))) L (Proc.devRef .tc main_v119)
      = val_main_v119 (F := F) (L (Proc.devRef .tc main_arg0)) (L (Proc.devRef .tc main_arg1)) (L (Proc.devRef .tc main_arg2))
          (L (Proc.devRef .tc main_arg3)) (L (Proc.devRef .tc main_arg4)) (L (Proc.devRef .tc main_arg5)) := by
  rw [ops_split, after_append]
  refine (tail_v119 (after headOps L) _ _ (head_v38 L) (head_v51 L) (head_v64 L) (head_v77 L)).trans ?_
  rw [head_arg2, head_arg3, head_arg4, head_arg5]

set_option maxRecDepth 8192 in
set_option maxHeartbeats 61600000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
        = val_main_v119 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v119).trans (after_ops_v119 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefRead.lean ====
/-
  The reference program's result read at one entry, on the extended reals: entry `(n, k)` is `Cert.Spec.dense` of node
  `n`'s four feature rows (the reference's own four feature stages), the four first-layer maps, and column `k` of the
  1024 × 256 second-layer map — the 1024 concatenated hidden units against that column, plus the bias, then `max · 0`.
-/
import proofs.«109132_j87600152969918_1_alg».proof.Proof.ReadP
import proofs.«109132_j87600152969918_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx

/-! ### Feature row 0 -/

/-- The first product's left factor at `(n, j)`, term `k`, is the node's feature `k`. -/
private theorem lidx0 (n : Fin 50000) (j : Fin 256) (k : Fin 96) : lidx_main_v80 (ix2 n j) k = ix2 n k :=
  funext fun a => Fin.ext (by match a with | ⟨0, _⟩ => rfl | ⟨1, _⟩ => rfl)

/-- Its right factor is entry `(k, j)` of band 0 of the first-layer maps: `(k * 256 + j) / 256 = k` and `(k * 256 + j) % 256 = j`. -/
private theorem widx0 (n : Fin 50000) (j : Fin 256) (k : Fin 96) :
    idx_main_v78 (idx_main_v79 (ridx_main_v80 (ix2 n j) k)) = ix3 (0 : Fin 4) k j :=
  funext fun a => Fin.ext (by
    have hk := k.isLt
    have hj := j.isLt
    match a with
    | ⟨0, _⟩ => rfl
    | ⟨1, _⟩ => show (k.val * 256 + j.val) / 256 % 96 = k.val; omega
    | ⟨2, _⟩ => show (k.val * 256 + j.val) % 256 = j.val; omega)

/-- The bias read at `(n, j)` is entry `j` of row 0 of the first-layer biases. -/
private theorem bidx0 (n : Fin 50000) (j : Fin 256) :
    idx_main_v81 (idx_main_v82 (idx_main_v83 (idx_main_v84 (ix2 n j)))) = ix2 (0 : Fin 4) j :=
  funext fun a => Fin.ext (by
    have hj := j.isLt
    match a with
    | ⟨0, _⟩ => rfl
    | ⟨1, _⟩ => show j.val % 256 = j.val; omega)

/-- Hidden unit `j` of node `n`'s feature row 0. -/
private theorem hidden0 (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (n : Fin 50000) (j : Fin 256) :
    val_main_v86 (F := Ideal) x1 x2 x3 (ix2 n j)
      = Cert.Spec.hidden (fun i => val_main_v38 (F := Ideal) x1 (ix2 n i)) (fun i j => x2 (ix3 (0 : Fin 4) i j))
          (fun j => x3 (ix2 (0 : Fin 4) j)) j := by
  rw [val_main_v86_apply, val_main_v85_apply, val_main_v80_apply, val_main_v84_apply, val_main_v83_apply,
    val_main_v82_apply, val_main_v81_apply, val_main_call2_v0_apply, val_main_call2_cst_apply]
  simp only [val_main_v79_apply, val_main_v78_apply, lidx0, widx0, bidx0, Ideal.maximumf_def, Ideal.addf_def,
    Ideal.ofBits_def, Ideal.ofBits_zero_f32, Cert.Spec.hidden]

/-! ### Feature row 1 -/

/-- The second product's left factor at `(n, j)`, term `k`, is the node's feature `k`. -/
private theorem lidx1 (n : Fin 50000) (j : Fin 256) (k : Fin 96) : lidx_main_v89 (ix2 n j) k = ix2 n k :=
  funext fun a => Fin.ext (by match a with | ⟨0, _⟩ => rfl | ⟨1, _⟩ => rfl)

/-- Its right factor is entry `(k, j)` of band 1 of the first-layer maps: `(k * 256 + j) / 256 = k` and `(k * 256 + j) % 256 = j`. -/
private theorem widx1 (n : Fin 50000) (j : Fin 256) (k : Fin 96) :
    idx_main_v87 (idx_main_v88 (ridx_main_v89 (ix2 n j) k)) = ix3 (1 : Fin 4) k j :=
  funext fun a => Fin.ext (by
    have hk := k.isLt
    have hj := j.isLt
    match a with
    | ⟨0, _⟩ => rfl
    | ⟨1, _⟩ => show (k.val * 256 + j.val) / 256 % 96 = k.val; omega
    | ⟨2, _⟩ => show (k.val * 256 + j.val) % 256 = j.val; omega)

/-- The bias read at `(n, j)` is entry `j` of row 1 of the first-layer biases. -/
private theorem bidx1 (n : Fin 50000) (j : Fin 256) :
    idx_main_v90 (idx_main_v91 (idx_main_v92 (idx_main_v93 (ix2 n j)))) = ix2 (1 : Fin 4) j :=
  funext fun a => Fin.ext (by
    have hj := j.isLt
    match a with
    | ⟨0, _⟩ => rfl
    | ⟨1, _⟩ => show j.val % 256 = j.val; omega)

/-- Hidden unit `j` of node `n`'s feature row 1. -/
private theorem hidden1 (x0 : (⟨S2x800000, .i32⟩ : BufTy).Contents (Elt Ideal)) (x1 : (⟨S50000x96, .f32⟩ : BufTy).Contents (Elt Ideal))
    (x2 : (⟨S4x96x256, .f32⟩ : BufTy).Contents (Elt Ideal)) (x3 : (⟨S4x256, .f32⟩ : BufTy).Contents (Elt Ideal))
    (n : Fin 50000) (j : Fin 256) :
    val_main_v95 (F := Ideal) x0 x1 x2 x3 (ix2 n j)
      = Cert.Spec.hidden (fun i => val_main_v51 (F := Ideal) x0 x1 (ix2 n i)) (fun i j => x2 (ix3 (1 : Fin 4) i j))
          (fun j => x3 (ix2 (1 : Fin 4) j)) j := by
  rw [val_main_v95_apply, val_main_v94_apply, val_main_v89_apply, val_main_v93_apply, val_main_v92_apply,
    val_main_v91_apply, val_main_v90_apply, val_main_call3_v0_apply, val_main_call3_cst_apply]
  simp only [val_main_v88_apply, val_main_v87_apply, lidx1, widx1, bidx1, Ideal.maximumf_def, Ideal.addf_def,
    Ideal.ofBits_def, Ideal.ofBits_zero_f32, Cert.Spec.hidden]

/-! ### Feature row 2 -/

/-- The third product's left factor at `(n, j)`, term `k`, is the node's feature `k`. -/
private theorem lidx2 (n : Fin 50000) (j : Fin 256) (k : Fin 96) : lidx_main_v98 (ix2 n j) k = ix2 n k :=
  funext fun a => Fin.ext (by match a with | ⟨0, _⟩ => rfl | ⟨1, _⟩ => rfl)

/-- Its right factor is entry `(k, j)` of band 2 of the first-layer maps: `(k * 256 + j) / 256 = k` and `(k * 256 + j) % 256 = j`. -/
private theorem widx2 (n : Fin 50000) (j : Fin 256) (k : Fin 96) :
    idx_main_v96 (idx_main_v97 (ridx_main_v98 (ix2 n j) k)) = ix3 (2 : Fin 4) k j :=
  funext fun a => Fin.ext (by
    have hk := k.isLt
    have hj := j.isLt
    match a with
    | ⟨0, _⟩ => rfl
    | ⟨1, _⟩ => show (k.val * 256 + j.val) / 256 % 96 = k.val; omega
    | ⟨2, _⟩ => show (k.val * 256 + j.val) % 256 = j.val; omega)

/-- The bias read at `(n, j)` is entry `j` of row 2 of the first-layer biases. -/
private theorem bidx2 (n : Fin 50000) (j : Fin 256) :
    idx_main_v99 (idx_main_v100 (idx_main_v101 (idx_main_v102 (ix2 n j)))) = ix2 (2 : Fin 4) j :=
  funext fun a => Fin.ext (by
    have hj := j.isLt
    match a with
    | ⟨0, _⟩ => rfl
    | ⟨1, _⟩ => show j.val % 256 = j.val; omega)

/-- Hidden unit `j` of node `n`'s feature row 2. -/
private theorem hidden2 (x0 : (⟨S2x800000, .i32⟩ : BufTy).Contents (Elt Ideal)) (x1 : (⟨S50000x96, .f32⟩ : BufTy).Contents (Elt Ideal))
    (x2 : (⟨S4x96x256, .f32⟩ : BufTy).Contents (Elt Ideal)) (x3 : (⟨S4x256, .f32⟩ : BufTy).Contents (Elt Ideal))
    (n : Fin 50000) (j : Fin 256) :
    val_main_v104 (F := Ideal) x0 x1 x2 x3 (ix2 n j)
      = Cert.Spec.hidden (fun i => val_main_v64 (F := Ideal) x0 x1 (ix2 n i)) (fun i j => x2 (ix3 (2 : Fin 4) i j))
          (fun j => x3 (ix2 (2 : Fin 4) j)) j := by
  rw [val_main_v104_apply, val_main_v103_apply, val_main_v98_apply, val_main_v102_apply, val_main_v101_apply,
    val_main_v100_apply, val_main_v99_apply, val_main_call4_v0_apply, val_main_call4_cst_apply]
  simp only [val_main_v97_apply, val_main_v96_apply, lidx2, widx2, bidx2, Ideal.maximumf_def, Ideal.addf_def,
    Ideal.ofBits_def, Ideal.ofBits_zero_f32, Cert.Spec.hidden]

/-! ### Feature row 3 -/

/-- The fourth product's left factor at `(n, j)`, term `k`, is the node's feature `k`. -/
private theorem lidx3 (n : Fin 50000) (j : Fin 256) (k : Fin 96) : lidx_main_v107 (ix2 n j) k = ix2 n k :=
  funext fun a => Fin.ext (by match a with | ⟨0, _⟩ => rfl | ⟨1, _⟩ => rfl)

/-- Its right factor is entry `(k, j)` of band 3 of the first-layer maps: `(k * 256 + j) / 256 = k` and `(k * 256 + j) % 256 = j`. -/
private theorem widx3 (n : Fin 50000) (j : Fin 256) (k : Fin 96) :
    idx_main_v105 (idx_main_v106 (ridx_main_v107 (ix2 n j) k)) = ix3 (3 : Fin 4) k j :=
  funext fun a => Fin.ext (by
    have hk := k.isLt
    have hj := j.isLt
    match a with
    | ⟨0, _⟩ => rfl
    | ⟨1, _⟩ => show (k.val * 256 + j.val) / 256 % 96 = k.val; omega
    | ⟨2, _⟩ => show (k.val * 256 + j.val) % 256 = j.val; omega)

/-- The bias read at `(n, j)` is entry `j` of row 3 of the first-layer biases. -/
private theorem bidx3 (n : Fin 50000) (j : Fin 256) :
    idx_main_v108 (idx_main_v109 (idx_main_v110 (idx_main_v111 (ix2 n j)))) = ix2 (3 : Fin 4) j :=
  funext fun a => Fin.ext (by
    have hj := j.isLt
    match a with
    | ⟨0, _⟩ => rfl
    | ⟨1, _⟩ => show j.val % 256 = j.val; omega)

/-- Hidden unit `j` of node `n`'s feature row 3. -/
private theorem hidden3 (x0 : (⟨S2x800000, .i32⟩ : BufTy).Contents (Elt Ideal)) (x1 : (⟨S50000x96, .f32⟩ : BufTy).Contents (Elt Ideal))
    (x2 : (⟨S4x96x256, .f32⟩ : BufTy).Contents (Elt Ideal)) (x3 : (⟨S4x256, .f32⟩ : BufTy).Contents (Elt Ideal))
    (n : Fin 50000) (j : Fin 256) :
    val_main_v113 (F := Ideal) x0 x1 x2 x3 (ix2 n j)
      = Cert.Spec.hidden (fun i => val_main_v77 (F := Ideal) x0 x1 (ix2 n i)) (fun i j => x2 (ix3 (3 : Fin 4) i j))
          (fun j => x3 (ix2 (3 : Fin 4) j)) j := by
  rw [val_main_v113_apply, val_main_v112_apply, val_main_v107_apply, val_main_v111_apply, val_main_v110_apply,
    val_main_v109_apply, val_main_v108_apply, val_main_call5_v0_apply, val_main_call5_cst_apply]
  simp only [val_main_v106_apply, val_main_v105_apply, lidx3, widx3, bidx3, Ideal.maximumf_def, Ideal.addf_def,
    Ideal.ofBits_def, Ideal.ofBits_zero_f32, Cert.Spec.hidden]

/-! ### The 1024 concatenated hidden units -/

/-- Four arrays of 256 columns joined along the columns: column `q` of the result is column `q % 256` of array `q / 256`. -/
private theorem cat4_apply {α : Type} (y0 y1 y2 y3 : S50000x256.Idx → α)
    (h : Shape.Concatenates [S50000x256, S50000x256, S50000x256, S50000x256] S50000x1024 1)
    (n : Fin 50000) (q : Fin 1024) :
    concatenate S50000x1024 1 [⟨S50000x256, y0⟩, ⟨S50000x256, y1⟩, ⟨S50000x256, y2⟩, ⟨S50000x256, y3⟩] h (ix2 n q)
      = (![y0, y1, y2, y3] (Cert.Spec.rowOf q)) (ix2 n (Cert.Spec.unitOf q)) :=
  concatenate_ofFn_apply (t := S50000x1024) (s₁ := S50000x256) 1 (![y0, y1, y2, y3]) h rfl 256 rfl (ix2 n q)
    (Cert.Spec.rowOf q) rfl (ix2 n (Cert.Spec.unitOf q)) rfl
    (fun b hb => by
      match b with
      | ⟨0, _⟩ => rfl
      | ⟨1, _⟩ => exact absurd (Fin.ext rfl) hb)

/-- Picking row `h` out of four arrays of hidden units, each of which is the hidden layer of its own feature array: stated over
    arbitrary arrays, so that which arrays they are plays no part in it. -/
private theorem pick_row (Y0 Y1 Y2 Y3 : (⟨S50000x256, .f32⟩ : BufTy).Contents (Elt Ideal)) (A0 A1 A2 A3 : (⟨S50000x96, .f32⟩ : BufTy).Contents (Elt Ideal))
    (x2 : (⟨S4x96x256, .f32⟩ : BufTy).Contents (Elt Ideal)) (x3 : (⟨S4x256, .f32⟩ : BufTy).Contents (Elt Ideal)) (n : Fin 50000)
    (e0 : ∀ j : Fin 256, Y0 (ix2 n j)
      = Cert.Spec.hidden (fun i => A0 (ix2 n i)) (fun i j => x2 (ix3 (0 : Fin 4) i j)) (fun j => x3 (ix2 (0 : Fin 4) j)) j)
    (e1 : ∀ j : Fin 256, Y1 (ix2 n j)
      = Cert.Spec.hidden (fun i => A1 (ix2 n i)) (fun i j => x2 (ix3 (1 : Fin 4) i j)) (fun j => x3 (ix2 (1 : Fin 4) j)) j)
    (e2 : ∀ j : Fin 256, Y2 (ix2 n j)
      = Cert.Spec.hidden (fun i => A2 (ix2 n i)) (fun i j => x2 (ix3 (2 : Fin 4) i j)) (fun j => x3 (ix2 (2 : Fin 4) j)) j)
    (e3 : ∀ j : Fin 256, Y3 (ix2 n j)
      = Cert.Spec.hidden (fun i => A3 (ix2 n i)) (fun i j => x2 (ix3 (3 : Fin 4) i j)) (fun j => x3 (ix2 (3 : Fin 4) j)) j)
    (h : Fin 4) (u : Fin 256) :
    (![Y0, Y1, Y2, Y3] h) (ix2 n u)
      = Cert.Spec.hidden (fun i => (![A0, A1, A2, A3] h) (ix2 n i)) (fun i j => x2 (ix3 h i j)) (fun j => x3 (ix2 h j)) u := by
  match h with
  | ⟨0, _⟩ => exact e0 u
  | ⟨1, _⟩ => exact e1 u
  | ⟨2, _⟩ => exact e2 u
  | ⟨3, _⟩ => exact e3 u

/-- Concatenated unit `q` of node `n` is hidden unit `q % 256` of feature row `q / 256`. -/
private theorem cat_apply (x0 : (⟨S2x800000, .i32⟩ : BufTy).Contents (Elt Ideal)) (x1 : (⟨S50000x96, .f32⟩ : BufTy).Contents (Elt Ideal))
    (x2 : (⟨S4x96x256, .f32⟩ : BufTy).Contents (Elt Ideal)) (x3 : (⟨S4x256, .f32⟩ : BufTy).Contents (Elt Ideal))
    (n : Fin 50000) (q : Fin 1024) :
    val_main_v114 (F := Ideal) x0 x1 x2 x3 (ix2 n q)
      = Cert.Spec.hidden
          (fun i => (![val_main_v38 (F := Ideal) x1, val_main_v51 (F := Ideal) x0 x1, val_main_v64 (F := Ideal) x0 x1,
              val_main_v77 (F := Ideal) x0 x1] (Cert.Spec.rowOf q)) (ix2 n i))
          (fun i j => x2 (ix3 (Cert.Spec.rowOf q) i j)) (fun j => x3 (ix2 (Cert.Spec.rowOf q) j)) (Cert.Spec.unitOf q) := by
  unfold val_main_v114
  rw [cat4_apply]
  exact pick_row (val_main_v86 (F := Ideal) x1 x2 x3) (val_main_v95 (F := Ideal) x0 x1 x2 x3) (val_main_v104 (F := Ideal) x0 x1 x2 x3)
    (val_main_v113 (F := Ideal) x0 x1 x2 x3) (val_main_v38 (F := Ideal) x1) (val_main_v51 (F := Ideal) x0 x1)
    (val_main_v64 (F := Ideal) x0 x1) (val_main_v77 (F := Ideal) x0 x1) x2 x3 n (hidden0 x1 x2 x3 n) (hidden1 x0 x1 x2 x3 n)
    (hidden2 x0 x1 x2 x3 n) (hidden3 x0 x1 x2 x3 n) (Cert.Spec.rowOf q) (Cert.Spec.unitOf q)

/-! ### The second layer -/

/-- The last product's left factor at `(n, k)`, term `q`, is concatenated unit `q` of node `n`. -/
private theorem lidxF (n : Fin 50000) (k : Fin 256) (q : Fin 1024) : lidx_main_v115 (ix2 n k) q = ix2 n q :=
  funext fun a => Fin.ext (by match a with | ⟨0, _⟩ => rfl | ⟨1, _⟩ => rfl)

/-- Its right factor is entry `(q, k)` of the second-layer map. -/
private theorem ridxF (n : Fin 50000) (k : Fin 256) (q : Fin 1024) : ridx_main_v115 (ix2 n k) q = ix2 q k :=
  funext fun a => Fin.ext (by match a with | ⟨0, _⟩ => rfl | ⟨1, _⟩ => rfl)

/-- The bias read at `(n, k)` is entry `k` of the second-layer bias. -/
private theorem bidxF (n : Fin 50000) (k : Fin 256) : idx_main_v116 (idx_main_v117 (ix2 n k)) = ix1 k :=
  funext fun a => Fin.ext (by match a with | ⟨0, _⟩ => rfl)

/-- The reference's result at entry `(n, k)`. -/
theorem ref_apply (x0 : (⟨S2x800000, .i32⟩ : BufTy).Contents (Elt Ideal)) (x1 : (⟨S50000x96, .f32⟩ : BufTy).Contents (Elt Ideal))
    (x2 : (⟨S4x96x256, .f32⟩ : BufTy).Contents (Elt Ideal)) (x3 : (⟨S4x256, .f32⟩ : BufTy).Contents (Elt Ideal))
    (x4 : (⟨S1024x256, .f32⟩ : BufTy).Contents (Elt Ideal)) (x5 : (⟨S256, .f32⟩ : BufTy).Contents (Elt Ideal))
    (n : Fin 50000) (k : Fin 256) :
    val_main_v119 (F := Ideal) x0 x1 x2 x3 x4 x5 (ix2 n k)
      = Cert.Spec.dense
          (fun h i => (![val_main_v38 (F := Ideal) x1, val_main_v51 (F := Ideal) x0 x1, val_main_v64 (F := Ideal) x0 x1,
              val_main_v77 (F := Ideal) x0 x1] h) (ix2 n i))
          (fun h i j => x2 (ix3 h i j)) (fun h j => x3 (ix2 h j)) (fun q => x4 (ix2 q k)) (x5 (ix1 k)) := by
  rw [val_main_v119_apply, val_main_v118_apply, val_main_v115_apply, val_main_v117_apply, val_main_v116_apply,
    val_main_call6_v0_apply, val_main_call6_cst_apply]
  simp only [lidxF, ridxF, bidxF, cat_apply, Ideal.maximumf_def, Ideal.addf_def, Ideal.ofBits_def, Ideal.ofBits_zero_f32,
    Cert.Spec.dense]

end Cert.ReferenceIdeal.RefValue

end
-- ==== Proof.lean ====
/-
  The certificate's claims, assembled.

  Both programs first build, from the edge list and the features, the same four feature arrays (row-normalised
  features and one, two, three rounds of degree-normalised neighbourhood sums) by the same host operations. The fused
  program stacks the four, re-lays the second-layer weights as four 256 × 256 blocks, and runs one kernel over 25 blocks
  of 2000 nodes: for each feature row an affine map into 256 hidden units and `max · 0`, each hidden row against its own
  block, the four products added, the bias, `max · 0`. The reference concatenates the four hidden rows into 1024 units
  and applies the 1024 × 256 map at once. On the extended reals the two are the same sum of 1024 products grouped
  differently (`Cert.Spec.fused_eq_dense`); changes of float format are the identity there, and no law used needs
  finiteness, so the precondition is never opened.
-/
import proofs.«109132_j87600152969918_1_alg».proof.Defs
import proofs.«109132_j87600152969918_1_alg».proof.Proof.Gen.Kernel
import proofs.«109132_j87600152969918_1_alg».proof.Proof.Gen.KernelIdeal
import proofs.«109132_j87600152969918_1_alg».proof.Proof.Gen.ReferenceIdeal
import proofs.«109132_j87600152969918_1_alg».proof.Proof.Gen.Pre_finite_inputs
import proofs.«109132_j87600152969918_1_alg».proof.Proof.RunK
import proofs.«109132_j87600152969918_1_alg».proof.Proof.RunKI
import proofs.«109132_j87600152969918_1_alg».proof.Proof.KernelValue
import proofs.«109132_j87600152969918_1_alg».proof.Proof.HeadLayout
import proofs.«109132_j87600152969918_1_alg».proof.Proof.HeadStages
import proofs.«109132_j87600152969918_1_alg».proof.Proof.RefRun
import proofs.«109132_j87600152969918_1_alg».proof.Proof.RefRead
import proofs.«109132_j87600152969918_1_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The three frames -/

theorem frame_p [Cert.Kernel.Facts] [Cert.Pre_finite_inputs.Facts] : Cert.frame_Kernel :=
  fun m ρ _ => Cert.Kernel.Hand.frame m ρ
theorem frame_pi [Cert.KernelIdeal.Facts] [Cert.Pre_finite_inputs.Facts] : Cert.frame_KernelIdeal :=
  fun m ρ _ => Cert.KernelIdeal.Hand.frame m ρ
/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefRun.run (F := Ideal) m ρ)

/-! ## The two results are one function -/

section
variable [Cert.KernelIdeal.Facts] [Cert.ReferenceIdeal.Facts]
open Cert.KernelIdeal Cert.KernelIdeal.Hand

/-- Entry `(n, k)` of the fused program's result is the reference's last stage at `(n, k)`, of the same arguments. -/
theorem outAt_eq_ref (m : (ℓ : Loc nD τ sig) → Buf (Elt Ideal) ℓ) (c : Dev nD) (n : Fin 50000) (k : Fin 256) :
    outAt m c n k
      = Cert.ReferenceIdeal.ReadP.val_main_v119 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (ix2 n k) := by
  rw [Cert.ReferenceIdeal.RefValue.ref_apply, ← Cert.Spec.fused_eq_dense]
  unfold outAt
  have hN : (fun (h : Fin 4) (i : Fin 96) => narr m c (ix3 h n i))
      = fun h i => (![Cert.ReferenceIdeal.ReadP.val_main_v38 (F := Ideal) (m ((c.tc : Thread nD τ).loc main_arg1)),
          Cert.ReferenceIdeal.ReadP.val_main_v51 (F := Ideal) (m ((c.tc : Thread nD τ).loc main_arg0)) (m ((c.tc : Thread nD τ).loc main_arg1)),
          Cert.ReferenceIdeal.ReadP.val_main_v64 (F := Ideal) (m ((c.tc : Thread nD τ).loc main_arg0)) (m ((c.tc : Thread nD τ).loc main_arg1)),
          Cert.ReferenceIdeal.ReadP.val_main_v77 (F := Ideal) (m ((c.tc : Thread nD τ).loc main_arg0)) (m ((c.tc : Thread nD τ).loc main_arg1))] h) (ix2 n i) := by
    funext h i
    rw [← V_v38_eq m c, ← V_v51_eq m c, ← V_v64_eq m c, ← V_v77_eq m c]
    exact V_v82_apply m c h n i
  have hW : (fun (h : Fin 4) (i : Fin 96) (j : Fin 256) => warr m c (ix3 h i j))
      = fun h i j => (m ((c.tc : Thread nD τ).loc main_arg2) : Vec Ideal S4x96x256 .f32) (ix3 h i j) := by
    funext h i j; exact congrFun (V_main_arg2 m c) _
  have hB : (fun (h : Fin 4) (j : Fin 256) => barr m c (ix2 h j))
      = fun h j => (m ((c.tc : Thread nD τ).loc main_arg3) : Vec Ideal S4x256 .f32) (ix2 h j) := by
    funext h j; exact congrFun (V_main_arg3 m c) _
  have hF : (fun (h : Fin 4) (j : Fin 256) => farr m c (ix3 h j k))
      = fun h j => (m ((c.tc : Thread nD τ).loc main_arg4) : Vec Ideal S1024x256 .f32) (ix2 (Cert.Spec.catIdx h j) k) := by
    funext h j; exact V_v83_apply m c h j k
  have hC : carr m c (ix2 0 k) = (m ((c.tc : Thread nD τ).loc main_arg5) : Vec Ideal S256 .f32) (ix1 k) := V_v84_apply m c k
  rw [hN, hW, hB, hF, hC]

end

/-- From memories agreeing on the arguments both programs run to the end with equal results and unchanged arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.Gout m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5⟩ := hagree c
  rw [h0, h1, h2, h3, h4, h5]
  funext i
  obtain ⟨n, k, rfl⟩ : ∃ (n : Fin 50000) (k : Fin 256), i = ix2 n k := ⟨i 0, i 1, eq_ix2 i⟩
  exact (outAt_eq_ref m c n k).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
